-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v194) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x2048x1024 : Shape := ⟨3, ![1, 2048, 1024]⟩
abbrev S8x1024x2048 : Shape := ⟨3, ![8, 1024, 2048]⟩
abbrev S8x1024x1024 : Shape := ⟨3, ![8, 1024, 1024]⟩
abbrev S2048x2 : Shape := ⟨2, ![2048, 2]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S8x1024x2048 : S_.BroadcastsInDim S8x1024x2048 (![] : Fin 0 → Fin S8x1024x2048.rank)
  reducesTo_S8x1024x2048_S_d0_1_2 : S8x1024x2048.ReducesTo [0, 1, 2] S_
  bcast_S_S8x1024x1024 : S_.BroadcastsInDim S8x1024x1024 (![] : Fin 0 → Fin S8x1024x1024.rank)
  reducesTo_S8x1024x1024_S_d0_1_2 : S8x1024x1024.ReducesTo [0, 1, 2] S_
  bcast_S_S2048x2 : S_.BroadcastsInDim S2048x2 (![] : Fin 0 → Fin S2048x2.rank)
  reducesTo_S2048x2_S_d0_1 : S2048x2.ReducesTo [0, 1] S_

variable [Facts]

def fn_part1 {F : FTy → Type} [FloatOps F] (main_v13 : IVec S_ 1) (main_v16 : IVec S2048x2 1) : IVec S_ 1 :=
  let main_c_5 : IVec S_ 1 := constantI S_ 1 1#1
  let main_v17 : IVec S_ 1 := (fun x v => Host.reduce IntOp.andi x v reducesTo_S2048x2_S_d0_1 h_S_) main_v16 main_c_5
  let main_v18 : IVec S_ 1 := andi main_v13 main_v17
  main_v18

def fn {F : FTy → Type} [FloatOps F] (main_arg0 : FVec F S1x2048x1024 .f32) (main_arg1 : FVec F S8x1024x2048 .f32) (main_arg2 : FVec F S8x1024x1024 .f32) (main_arg3 : IVec S2048x2 32) (main_arg4 : FVec F S2048x2 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S8x1024x2048 .f32 := Host.absf main_arg1
  let main_cst_0 : FVec F S_ .f32 := constant S_ .f32 0x7F800000#32
  let main_v5 : FVec F S8x1024x2048 .f32 := broadcastInDim S8x1024x2048 ![] bcast_S_S8x1024x2048 main_cst_0
  let main_v6 : IVec S8x1024x2048 1 := cmpf .olt main_v4 main_v5
  let main_c_1 : IVec S_ 1 := constantI S_ 1 1#1
  let main_v7 : IVec S_ 1 := (fun x v => Host.reduce IntOp.andi x v reducesTo_S8x1024x2048_S_d0_1_2 h_S_) main_v6 main_c_1
  let main_v8 : IVec S_ 1 := andi main_v3 main_v7
  let main_v9 : FVec F S8x1024x1024 .f32 := Host.absf main_arg2
  let main_cst_2 : FVec F S_ .f32 := constant S_ .f32 0x7F800000#32
  let main_v10 : FVec F S8x1024x1024 .f32 := broadcastInDim S8x1024x1024 ![] bcast_S_S8x1024x1024 main_cst_2
  let main_v11 : IVec S8x1024x1024 1 := cmpf .olt main_v9 main_v10
  let main_c_3 : IVec S_ 1 := constantI S_ 1 1#1
  let main_v12 : IVec S_ 1 := (fun x v => Host.reduce IntOp.andi x v reducesTo_S8x1024x1024_S_d0_1_2 h_S_) main_v11 main_c_3
  let main_v13 : IVec S_ 1 := andi main_v8 main_v12
  let main_v14 : FVec F S2048x2 .f32 := Host.absf main_arg4
  let main_cst_4 : FVec F S_ .f32 := constant S_ .f32 0x7F800000#32
  let main_v15 : FVec F S2048x2 .f32 := broadcastInDim S2048x2 ![] bcast_S_S2048x2 main_cst_4
  let main_v16 : IVec S2048x2 1 := cmpf .olt main_v14 main_v15
  fn_part1 (F := F) main_v13 main_v16
-- ==== Kernel.lean ====
abbrev S1x2048x1024 : Shape := ⟨3, ![1, 2048, 1024]⟩
abbrev S8x1024x2048 : Shape := ⟨3, ![8, 1024, 2048]⟩
abbrev S8x1024x1024 : Shape := ⟨3, ![8, 1024, 1024]⟩
abbrev S2048x2 : Shape := ⟨2, ![2048, 2]⟩
abbrev S2048x1024 : Shape := ⟨2, ![2048, 1024]⟩
abbrev S512x2 : Shape := ⟨2, ![512, 2]⟩
abbrev S512x1024 : Shape := ⟨2, ![512, 1024]⟩
abbrev S1x1024x2048 : Shape := ⟨3, ![1, 1024, 2048]⟩
abbrev S1x1024x1024 : Shape := ⟨3, ![1, 1024, 1024]⟩
abbrev S1024x2048 : Shape := ⟨2, ![1024, 2048]⟩
abbrev S512x2048 : Shape := ⟨2, ![512, 2048]⟩
abbrev S1024x1024 : Shape := ⟨2, ![1024, 1024]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S1x2048x1024, .f32⟩
  | .hbm, ⟨1, _⟩ => ⟨S8x1024x2048, .f32⟩
  | .hbm, ⟨2, _⟩ => ⟨S8x1024x1024, .f32⟩
  | .hbm, ⟨3, _⟩ => ⟨S2048x2, .i32⟩
  | .hbm, ⟨4, _⟩ => ⟨S2048x2, .f32⟩
  | .hbm, ⟨5, _⟩ => ⟨S2048x1024, .f32⟩
  | .hbm, ⟨6, _⟩ => ⟨S2048x1024, .f32⟩
  | .hbm, ⟨7, _⟩ => ⟨S1x2048x1024, .f32⟩
  | .local _ .vmem, ⟨0, _⟩ => ⟨S512x2, .i32⟩
  | .local _ .vmem, ⟨1, _⟩ => ⟨S512x2, .i32⟩
  | .local _ .vmem, ⟨2, _⟩ => ⟨S512x2, .f32⟩
  | .local _ .vmem, ⟨3, _⟩ => ⟨S512x2, .f32⟩
  | .local _ .vmem, ⟨4, _⟩ => ⟨S512x1024, .f32⟩
  | .local _ .vmem, ⟨5, _⟩ => ⟨S512x1024, .f32⟩
  | .local _ .vmem, ⟨6, _⟩ => ⟨S1x1024x2048, .f32⟩
  | .local _ .vmem, ⟨7, _⟩ => ⟨S1x1024x2048, .f32⟩
  | .local _ .vmem, ⟨8, _⟩ => ⟨S1x1024x1024, .f32⟩
  | .local _ .vmem, ⟨9, _⟩ => ⟨S1x1024x1024, .f32⟩
  | .local _ .vmem, ⟨10, _⟩ => ⟨S512x1024, .f32⟩
  | .local _ .vmem, ⟨11, _⟩ => ⟨S512x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v23 : BitVec 1 := Scalar.cmpi .eq arg1 c0_i32
  let v24 : BitVec 32 := Scalar.extui v23
  let c0_i32_14 : BitVec 32 := 0#32
  let v25 : BitVec 1 := Scalar.cmpi .ne v24 c0_i32_14
  v25

def k0_cond2 (i : grid0.Coords) : BitVec 1 :=
  let arg1 : BitVec 32 := BitVec.ofNat 32 (i 1).val
  let c0_i32_15 : BitVec 32 := 0#32
  let v26 : BitVec 1 := Scalar.cmpi .sgt arg1 c0_i32_15
  let v27 : BitVec 32 := Scalar.extui v26
  let c0_i32_16 : BitVec 32 := 0#32
  let v28 : BitVec 1 := Scalar.cmpi .ne v27 c0_i32_16
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S1x2048x1024_S2048x1024 : S1x2048x1024.ShapeCasts S2048x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  slices_S512x2048_o0_0_S512x1024 : S512x2048.Slices ![0, 0] S512x1024
  slices_S512x2048_o0_1024_S512x1024 : S512x2048.Slices ![0, 1024] S512x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S512x2_S512x2_0_0 : ∀ a, (![0, 0] : Fin 2 → Nat) a + S512x2.size a ≤ S512x2.size a
  h_S512x2 : 0 < S512x2.numel
  reduces_S512x2_S512 : S512x2.Reduces [1] S512
  shapeCasts_S512_S512x1 : S512.ShapeCasts S512x1
  broadcasts_S512x1_S512x1024 : S512x1.Broadcasts S512x1024
  shapeCasts_S2048x1024_S1x2048x1024 : S2048x1024.ShapeCasts S1x2048x1024
  dot_S512x1024_S1024x2048_S512x2048_1_0_0_1_n_n_wf : DotDims.WF S512x1024 S1024x2048 S512x2048 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2.size a ≤ S2048x2.size a
  hwx0_0 : ∀ i : grid0.Coords, EltTy.bits .i32 = 32 ∨ (Rect.block (s := S2048x2) S512x2.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2.size a ≤ S2048x2.size a
  hwx0_1 : ∀ i : grid0.Coords, EltTy.bits .f32 = 32 ∨ (Rect.block (s := S2048x2) S512x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S2048x1024.size a
  hwx0_2 : ∀ i : grid0.Coords, EltTy.bits .f32 = 32 ∨ (Rect.block (s := S2048x1024) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x2048.size a ≤ S8x1024x2048.size a
  hwx0_3 : ∀ i : grid0.Coords, EltTy.bits .f32 = 32 ∨ (Rect.block (s := S8x1024x2048) S1x1024x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1024.size a ≤ S8x1024x1024.size a
  hwx0_4 : ∀ i : grid0.Coords, EltTy.bits .f32 = 32 ∨ (Rect.block (s := S8x1024x1024) S1x1024x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S2048x1024.size a
  hwx0_5 : ∀ i : grid0.Coords, EltTy.bits .f32 = 32 ∨ (Rect.block (s := S2048x1024) S512x1024.size (cc0_transform_5 i) (hinb0_5 i)).WholeWords (EltTy.packing .f32)

variable [Facts₀]

def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg3) S512x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1x1024x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S1x1024x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond1 i == 1#1) && !(k0_cond2 i == 1#1) | ⟨_ + 6, h⟩ => absurd h (Nat.not_lt.2 (Nat.le_add_left _ _))

class Facts : Prop extends Facts₀ where

variable [Facts]
-- ==== ReferenceIdeal.lean ====
abbrev S1x2048x1024 : Shape := ⟨3, ![1, 2048, 1024]⟩
abbrev S8x1024x2048 : Shape := ⟨3, ![8, 1024, 2048]⟩
abbrev S8x1024x1024 : Shape := ⟨3, ![8, 1024, 1024]⟩
abbrev S2048x2 : Shape := ⟨2, ![2048, 2]⟩
abbrev S2048x1024 : Shape := ⟨2, ![2048, 1024]⟩
abbrev S_ : Shape := ⟨0, ![]⟩
abbrev S1x1024x2048 : Shape := ⟨3, ![1, 1024, 2048]⟩
abbrev S1024x2048 : Shape := ⟨2, ![1024, 2048]⟩
abbrev S2048x2048 : Shape := ⟨2, ![2048, 2048]⟩
abbrev S1x1024x1024 : Shape := ⟨3, ![1, 1024, 1024]⟩
abbrev S1024x1024 : Shape := ⟨2, ![1024, 1024]⟩
abbrev S2048 : Shape := ⟨1, ![2048]⟩
abbrev S2048x1 : Shape := ⟨2, ![2048, 1]⟩

abbrev nBuf : Space → Nat
  | .hbm => 257
  | .vmem => 0
  | .smem => 0
  | _ => 0

abbrev hbmTy0_0 (i : Nat) : BufTy := match i % 128 with
  | 0 => ⟨S1x2048x1024, .f32⟩
  | 1 => ⟨S8x1024x2048, .f32⟩
  | 2 => ⟨S8x1024x1024, .f32⟩
  | 3 => ⟨S2048x2, .i32⟩
  | 4 => ⟨S2048x2, .f32⟩
  | 5 => ⟨S2048x1024, .f32⟩
  | 6 => ⟨S_, .f32⟩
  | 7 => ⟨S2048x1024, .f32⟩
  | 8 => ⟨S1x1024x2048, .f32⟩
  | 9 => ⟨S1024x2048, .f32⟩
  | 10 => ⟨S2048x2048, .f32⟩
  | 11 => ⟨S2048x1024, .f32⟩
  | 12 => ⟨S2048x1024, .f32⟩
  | 13 => ⟨S2048x1024, .f32⟩
  | 14 => ⟨S2048x1024, .f32⟩
  | 15 => ⟨S_, .f32⟩
  | 16 => ⟨S2048x1024, .f32⟩
  | 17 => ⟨S2048x1024, .f32⟩
  | 18 => ⟨S_, .f32⟩
  | 19 => ⟨S2048x1024, .f32⟩
  | 20 => ⟨S2048x1024, .f32⟩
  | 21 => ⟨S2048x1024, .f32⟩
  | 22 => ⟨S2048x1024, .f32⟩
  | 23 => ⟨S1x1024x1024, .f32⟩
  | 24 => ⟨S1024x1024, .f32⟩
  | 25 => ⟨S2048x1024, .f32⟩
  | 26 => ⟨S_, .i32⟩
  | 27 => ⟨S2048x2, .i32⟩
  | 28 => ⟨S2048x2, .i1⟩
  | 29 => ⟨S_, .f32⟩
  | 30 => ⟨S_, .f32⟩
  | 31 => ⟨S2048x2, .f32⟩
  | 32 => ⟨S2048x2, .f32⟩
  | 33 => ⟨S_, .f32⟩
  | 34 => ⟨S2048, .f32⟩
  | 35 => ⟨S2048x1, .f32⟩
  | 36 => ⟨S2048x1024, .f32⟩
  | 37 => ⟨S2048x1024, .f32⟩
  | 38 => ⟨S2048x1024, .f32⟩
  | 39 => ⟨S1x1024x2048, .f32⟩
  | 40 => ⟨S1024x2048, .f32⟩
  | 41 => ⟨S2048x2048, .f32⟩
  | 42 => ⟨S2048x1024, .f32⟩
  | 43 => ⟨S2048x1024, .f32⟩
  | 44 => ⟨S2048x1024, .f32⟩
  | 45 => ⟨S2048x1024, .f32⟩
  | 46 => ⟨S_, .f32⟩
  | 47 => ⟨S2048x1024, .f32⟩
  | 48 => ⟨S2048x1024, .f32⟩
  | 49 => ⟨S_, .f32⟩
  | 50 => ⟨S2048x1024, .f32⟩
  | 51 => ⟨S2048x1024, .f32⟩
  | 52 => ⟨S2048x1024, .f32⟩
  | 53 => ⟨S2048x1024, .f32⟩
  | 54 => ⟨S1x1024x1024, .f32⟩
  | 55 => ⟨S1024x1024, .f32⟩
  | 56 => ⟨S2048x1024, .f32⟩
  | 57 => ⟨S_, .i32⟩
  | 58 => ⟨S2048x2, .i32⟩
  | 59 => ⟨S2048x2, .i1⟩
  | 60 => ⟨S_, .f32⟩
  | 61 => ⟨S_, .f32⟩
  | 62 => ⟨S2048x2, .f32⟩
  | 63 => ⟨S2048x2, .f32⟩
  | 64 => ⟨S_, .f32⟩
  | 65 => ⟨S2048, .f32⟩
  | 66 => ⟨S2048x1, .f32⟩
  | 67 => ⟨S2048x1024, .f32⟩
  | 68 => ⟨S2048x1024, .f32⟩
  | 69 => ⟨S2048x1024, .f32⟩
  | 70 => ⟨S1x1024x2048, .f32⟩
  | 71 => ⟨S1024x2048, .f32⟩
  | 72 => ⟨S2048x2048, .f32⟩
  | 73 => ⟨S2048x1024, .f32⟩
  | 74 => ⟨S2048x1024, .f32⟩
  | 75 => ⟨S2048x1024, .f32⟩
  | 76 => ⟨S2048x1024, .f32⟩
  | 77 => ⟨S_, .f32⟩
  | 78 => ⟨S2048x1024, .f32⟩
  | 79 => ⟨S2048x1024, .f32⟩
  | 80 => ⟨S_, .f32⟩
  | 81 => ⟨S2048x1024, .f32⟩
  | 82 => ⟨S2048x1024, .f32⟩
  | 83 => ⟨S2048x1024, .f32⟩
  | 84 => ⟨S2048x1024, .f32⟩
  | 85 => ⟨S1x1024x1024, .f32⟩
  | 86 => ⟨S1024x1024, .f32⟩
  | 87 => ⟨S2048x1024, .f32⟩
  | 88 => ⟨S_, .i32⟩
  | 89 => ⟨S2048x2, .i32⟩
  | 90 => ⟨S2048x2, .i1⟩
  | 91 => ⟨S_, .f32⟩
  | 92 => ⟨S_, .f32⟩
  | 93 => ⟨S2048x2, .f32⟩
  | 94 => ⟨S2048x2, .f32⟩
  | 95 => ⟨S_, .f32⟩
  | 96 => ⟨S2048, .f32⟩
  | 97 => ⟨S2048x1, .f32⟩
  | 98 => ⟨S2048x1024, .f32⟩
  | 99 => ⟨S2048x1024, .f32⟩
  | 100 => ⟨S2048x1024, .f32⟩
  | 101 => ⟨S1x1024x2048, .f32⟩
  | 102 => ⟨S1024x2048, .f32⟩
  | 103 => ⟨S2048x2048, .f32⟩
  | 104 => ⟨S2048x1024, .f32⟩
  | 105 => ⟨S2048x1024, .f32⟩
  | 106 => ⟨S2048x1024, .f32⟩
  | 107 => ⟨S2048x1024, .f32⟩
  | 108 => ⟨S_, .f32⟩
  | 109 => ⟨S2048x1024, .f32⟩
  | 110 => ⟨S2048x1024, .f32⟩
  | 111 => ⟨S_, .f32⟩
  | 112 => ⟨S2048x1024, .f32⟩
  | 113 => ⟨S2048x1024, .f32⟩
  | 114 => ⟨S2048x1024, .f32⟩
  | 115 => ⟨S2048x1024, .f32⟩
  | 116 => ⟨S1x1024x1024, .f32⟩
  | 117 => ⟨S1024x1024, .f32⟩
  | 118 => ⟨S2048x1024, .f32⟩
  | 119 => ⟨S_, .i32⟩
  | 120 => ⟨S2048x2, .i32⟩
  | 121 => ⟨S2048x2, .i1⟩
  | 122 => ⟨S_, .f32⟩
  | 123 => ⟨S_, .f32⟩
  | 124 => ⟨S2048x2, .f32⟩
  | 125 => ⟨S2048x2, .f32⟩
  | 126 => ⟨S_, .f32⟩
  | 127 => ⟨S2048, .f32⟩
  | _ => ⟨S1x2048x1024, .f32⟩

abbrev hbmTy0_1 (i : Nat) : BufTy := match i % 128 with
  | 0 => ⟨S2048x1, .f32⟩
  | 1 => ⟨S2048x1024, .f32⟩
  | 2 => ⟨S2048x1024, .f32⟩
  | 3 => ⟨S2048x1024, .f32⟩
  | 4 => ⟨S1x1024x2048, .f32⟩
  | 5 => ⟨S1024x2048, .f32⟩
  | 6 => ⟨S2048x2048, .f32⟩
  | 7 => ⟨S2048x1024, .f32⟩
  | 8 => ⟨S2048x1024, .f32⟩
  | 9 => ⟨S2048x1024, .f32⟩
  | 10 => ⟨S2048x1024, .f32⟩
  | 11 => ⟨S_, .f32⟩
  | 12 => ⟨S2048x1024, .f32⟩
  | 13 => ⟨S2048x1024, .f32⟩
  | 14 => ⟨S_, .f32⟩
  | 15 => ⟨S2048x1024, .f32⟩
  | 16 => ⟨S2048x1024, .f32⟩
  | 17 => ⟨S2048x1024, .f32⟩
  | 18 => ⟨S2048x1024, .f32⟩
  | 19 => ⟨S1x1024x1024, .f32⟩
  | 20 => ⟨S1024x1024, .f32⟩
  | 21 => ⟨S2048x1024, .f32⟩
  | 22 => ⟨S_, .i32⟩
  | 23 => ⟨S2048x2, .i32⟩
  | 24 => ⟨S2048x2, .i1⟩
  | 25 => ⟨S_, .f32⟩
  | 26 => ⟨S_, .f32⟩
  | 27 => ⟨S2048x2, .f32⟩
  | 28 => ⟨S2048x2, .f32⟩
  | 29 => ⟨S_, .f32⟩
  | 30 => ⟨S2048, .f32⟩
  | 31 => ⟨S2048x1, .f32⟩
  | 32 => ⟨S2048x1024, .f32⟩
  | 33 => ⟨S2048x1024, .f32⟩
  | 34 => ⟨S2048x1024, .f32⟩
  | 35 => ⟨S1x1024x2048, .f32⟩
  | 36 => ⟨S1024x2048, .f32⟩
  | 37 => ⟨S2048x2048, .f32⟩
  | 38 => ⟨S2048x1024, .f32⟩
  | 39 => ⟨S2048x1024, .f32⟩
  | 40 => ⟨S2048x1024, .f32⟩
  | 41 => ⟨S2048x1024, .f32⟩
  | 42 => ⟨S_, .f32⟩
  | 43 => ⟨S2048x1024, .f32⟩
  | 44 => ⟨S2048x1024, .f32⟩
  | 45 => ⟨S_, .f32⟩
  | 46 => ⟨S2048x1024, .f32⟩
  | 47 => ⟨S2048x1024, .f32⟩
  | 48 => ⟨S2048x1024, .f32⟩
  | 49 => ⟨S2048x1024, .f32⟩
  | 50 => ⟨S1x1024x1024, .f32⟩
  | 51 => ⟨S1024x1024, .f32⟩
  | 52 => ⟨S2048x1024, .f32⟩
  | 53 => ⟨S_, .i32⟩
  | 54 => ⟨S2048x2, .i32⟩
  | 55 => ⟨S2048x2, .i1⟩
  | 56 => ⟨S_, .f32⟩
  | 57 => ⟨S_, .f32⟩
  | 58 => ⟨S2048x2, .f32⟩
  | 59 => ⟨S2048x2, .f32⟩
  | 60 => ⟨S_, .f32⟩
  | 61 => ⟨S2048, .f32⟩
  | 62 => ⟨S2048x1, .f32⟩
  | 63 => ⟨S2048x1024, .f32⟩
  | 64 => ⟨S2048x1024, .f32⟩
  | 65 => ⟨S2048x1024, .f32⟩
  | 66 => ⟨S1x1024x2048, .f32⟩
  | 67 => ⟨S1024x2048, .f32⟩
  | 68 => ⟨S2048x2048, .f32⟩
  | 69 => ⟨S2048x1024, .f32⟩
  | 70 => ⟨S2048x1024, .f32⟩
  | 71 => ⟨S2048x1024, .f32⟩
  | 72 => ⟨S2048x1024, .f32⟩
  | 73 => ⟨S_, .f32⟩
  | 74 => ⟨S2048x1024, .f32⟩
  | 75 => ⟨S2048x1024, .f32⟩
  | 76 => ⟨S_, .f32⟩
  | 77 => ⟨S2048x1024, .f32⟩
  | 78 => ⟨S2048x1024, .f32⟩
  | 79 => ⟨S2048x1024, .f32⟩
  | 80 => ⟨S2048x1024, .f32⟩
  | 81 => ⟨S1x1024x1024, .f32⟩
  | 82 => ⟨S1024x1024, .f32⟩
  | 83 => ⟨S2048x1024, .f32⟩
  | 84 => ⟨S_, .i32⟩
  | 85 => ⟨S2048x2, .i32⟩
  | 86 => ⟨S2048x2, .i1⟩
  | 87 => ⟨S_, .f32⟩
  | 88 => ⟨S_, .f32⟩
  | 89 => ⟨S2048x2, .f32⟩
  | 90 => ⟨S2048x2, .f32⟩
  | 91 => ⟨S_, .f32⟩
  | 92 => ⟨S2048, .f32⟩
  | 93 => ⟨S2048x1, .f32⟩
  | 94 => ⟨S2048x1024, .f32⟩
  | 95 => ⟨S2048x1024, .f32⟩
  | 96 => ⟨S2048x1024, .f32⟩
  | 97 => ⟨S1x1024x2048, .f32⟩
  | 98 => ⟨S1024x2048, .f32⟩
  | 99 => ⟨S2048x2048, .f32⟩
  | 100 => ⟨S2048x1024, .f32⟩
  | 101 => ⟨S2048x1024, .f32⟩
  | 102 => ⟨S2048x1024, .f32⟩
  | 103 => ⟨S2048x1024, .f32⟩
  | 104 => ⟨S_, .f32⟩
  | 105 => ⟨S2048x1024, .f32⟩
  | 106 => ⟨S2048x1024, .f32⟩
  | 107 => ⟨S_, .f32⟩
  | 108 => ⟨S2048x1024, .f32⟩
  | 109 => ⟨S2048x1024, .f32⟩
  | 110 => ⟨S2048x1024, .f32⟩
  | 111 => ⟨S2048x1024, .f32⟩
  | 112 => ⟨S1x1024x1024, .f32⟩
  | 113 => ⟨S1024x1024, .f32⟩
  | 114 => ⟨S2048x1024, .f32⟩
  | 115 => ⟨S_, .i32⟩
  | 116 => ⟨S2048x2, .i32⟩
  | 117 => ⟨S2048x2, .i1⟩
  | 118 => ⟨S_, .f32⟩
  | 119 => ⟨S_, .f32⟩
  | 120 => ⟨S2048x2, .f32⟩
  | 121 => ⟨S2048x2, .f32⟩
  | 122 => ⟨S_, .f32⟩
  | 123 => ⟨S2048, .f32⟩
  | 124 => ⟨S2048x1, .f32⟩
  | 125 => ⟨S2048x1024, .f32⟩
  | 126 => ⟨S2048x1024, .f32⟩
  | 127 => ⟨S2048x1024, .f32⟩
  | _ => ⟨S1x2048x1024, .f32⟩

abbrev hbmTy0_2 (i : Nat) : BufTy := match i % 128 with
  | 0 => ⟨S1x2048x1024, .f32⟩
  | _ => ⟨S1x2048x1024, .f32⟩

abbrev hbmTy (i : Nat) : BufTy := match i / 128 with
  | 0 => hbmTy0_0 i
  | 1 => hbmTy0_1 i
  | 2 => hbmTy0_2 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c_6 : Ref sig .tc := ⟨.hbm, 57, rfl⟩
abbrev main_v42 : Ref sig .tc := ⟨.hbm, 58, rfl⟩
abbrev main_v43 : Ref sig .tc := ⟨.hbm, 59, rfl⟩
abbrev main_cst_7 : Ref sig .tc := ⟨.hbm, 60, rfl⟩
abbrev main_call1_v0 : Ref sig .tc := ⟨.hbm, 61, rfl⟩
abbrev main_call1_v1 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_9 : Ref sig .tc := ⟨.hbm, 77, rfl⟩
abbrev main_v57 : Ref sig .tc := ⟨.hbm, 78, rfl⟩
abbrev main_v58 : Ref sig .tc := ⟨.hbm, 79, rfl⟩
abbrev main_cst_10 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_c_11 : Ref sig .tc := ⟨.hbm, 88, rfl⟩
abbrev main_v66 : Ref sig .tc := ⟨.hbm, 89, rfl⟩
abbrev main_v67 : Ref sig .tc := ⟨.hbm, 90, rfl⟩
abbrev main_cst_12 : Ref sig .tc := ⟨.hbm, 91, rfl⟩
abbrev main_call2_v0 : Ref sig .tc := ⟨.hbm, 92, rfl⟩
abbrev main_call2_v1 : Ref sig .tc := ⟨.hbm, 93, rfl⟩
abbrev main_v68 : Ref sig .tc := ⟨.hbm, 94, rfl⟩
abbrev main_cst_13 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_14 : Ref sig .tc := ⟨.hbm, 108, rfl⟩
abbrev main_v81 : Ref sig .tc := ⟨.hbm, 109, rfl⟩
abbrev main_v82 : Ref sig .tc := ⟨.hbm, 110, rfl⟩
abbrev main_cst_15 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_c_16 : Ref sig .tc := ⟨.hbm, 119, rfl⟩
abbrev main_v90 : Ref sig .tc := ⟨.hbm, 120, rfl⟩
abbrev main_v91 : Ref sig .tc := ⟨.hbm, 121, rfl⟩
abbrev main_cst_17 : Ref sig .tc := ⟨.hbm, 122, rfl⟩
abbrev main_call3_v0 : Ref sig .tc := ⟨.hbm, 123, rfl⟩
abbrev main_call3_v1 : Ref sig .tc := ⟨.hbm, 124, rfl⟩
abbrev main_v92 : Ref sig .tc := ⟨.hbm, 125, rfl⟩
abbrev main_cst_18 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_cst_19 : Ref sig .tc := ⟨.hbm, 139, rfl⟩
abbrev main_v105 : Ref sig .tc := ⟨.hbm, 140, rfl⟩
abbrev main_v106 : Ref sig .tc := ⟨.hbm, 141, rfl⟩
abbrev main_cst_20 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_c_21 : Ref sig .tc := ⟨.hbm, 150, rfl⟩
abbrev main_v114 : Ref sig .tc := ⟨.hbm, 151, rfl⟩
abbrev main_v115 : Ref sig .tc := ⟨.hbm, 152, rfl⟩
abbrev main_cst_22 : Ref sig .tc := ⟨.hbm, 153, rfl⟩
abbrev main_call4_v0 : Ref sig .tc := ⟨.hbm, 154, rfl⟩
abbrev main_call4_v1 : Ref sig .tc := ⟨.hbm, 155, rfl⟩
abbrev main_v116 : Ref sig .tc := ⟨.hbm, 156, rfl⟩
abbrev main_cst_23 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_cst_24 : Ref sig .tc := ⟨.hbm, 170, rfl⟩
abbrev main_v129 : Ref sig .tc := ⟨.hbm, 171, rfl⟩
abbrev main_v130 : Ref sig .tc := ⟨.hbm, 172, rfl⟩
abbrev main_cst_25 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_c_26 : Ref sig .tc := ⟨.hbm, 181, rfl⟩
abbrev main_v138 : Ref sig .tc := ⟨.hbm, 182, rfl⟩
abbrev main_v139 : Ref sig .tc := ⟨.hbm, 183, rfl⟩
abbrev main_cst_27 : Ref sig .tc := ⟨.hbm, 184, rfl⟩
abbrev main_call5_v0 : Ref sig .tc := ⟨.hbm, 185, rfl⟩
abbrev main_call5_v1 : Ref sig .tc := ⟨.hbm, 186, rfl⟩
abbrev main_v140 : Ref sig .tc := ⟨.hbm, 187, rfl⟩
abbrev main_cst_28 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_cst_29 : Ref sig .tc := ⟨.hbm, 201, rfl⟩
abbrev main_v153 : Ref sig .tc := ⟨.hbm, 202, rfl⟩
abbrev main_v154 : Ref sig .tc := ⟨.hbm, 203, rfl⟩
abbrev main_cst_30 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_c_31 : Ref sig .tc := ⟨.hbm, 212, rfl⟩
abbrev main_v162 : Ref sig .tc := ⟨.hbm, 213, rfl⟩
abbrev main_v163 : Ref sig .tc := ⟨.hbm, 214, rfl⟩
abbrev main_cst_32 : Ref sig .tc := ⟨.hbm, 215, rfl⟩
abbrev main_call6_v0 : Ref sig .tc := ⟨.hbm, 216, rfl⟩
abbrev main_call6_v1 : Ref sig .tc := ⟨.hbm, 217, rfl⟩
abbrev main_v164 : Ref sig .tc := ⟨.hbm, 218, rfl⟩
abbrev main_cst_33 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_cst_34 : Ref sig .tc := ⟨.hbm, 232, rfl⟩
abbrev main_v177 : Ref sig .tc := ⟨.hbm, 233, rfl⟩
abbrev main_v178 : Ref sig .tc := ⟨.hbm, 234, rfl⟩
abbrev main_cst_35 : Ref sig .tc := ⟨.hbm, 235, rfl⟩
abbrev main_v179 : Ref sig .tc := ⟨.hbm, 236, rfl⟩
abbrev main_v180 : Ref sig .tc := ⟨.hbm, 237, rfl⟩
abbrev main_v181 : Ref sig .tc := ⟨.hbm, 238, rfl⟩
abbrev main_v182 : Ref sig .tc := ⟨.hbm, 239, rfl⟩
abbrev main_v183 : Ref sig .tc := ⟨.hbm, 240, rfl⟩
abbrev main_v184 : Ref sig .tc := ⟨.hbm, 241, rfl⟩
abbrev main_v185 : Ref sig .tc := ⟨.hbm, 242, rfl⟩
abbrev main_c_36 : Ref sig .tc := ⟨.hbm, 243, rfl⟩
abbrev main_v186 : Ref sig .tc := ⟨.hbm, 244, rfl⟩
abbrev main_v187 : Ref sig .tc := ⟨.hbm, 245, rfl⟩
abbrev main_cst_37 : Ref sig .tc := ⟨.hbm, 246, rfl⟩
abbrev main_call7_v0 : Ref sig .tc := ⟨.hbm, 247, rfl⟩
abbrev main_call7_v1 : Ref sig .tc := ⟨.hbm, 248, rfl⟩
abbrev main_v188 : Ref sig .tc := ⟨.hbm, 249, rfl⟩
abbrev main_cst_38 : Ref sig .tc := ⟨.hbm, 250, rfl⟩
abbrev main_v189 : Ref sig .tc := ⟨.hbm, 251, rfl⟩
abbrev main_v190 : Ref sig .tc := ⟨.hbm, 252, rfl⟩
abbrev main_v191 : Ref sig .tc := ⟨.hbm, 253, rfl⟩
abbrev main_v192 : Ref sig .tc := ⟨.hbm, 254, rfl⟩
abbrev main_v193 : Ref sig .tc := ⟨.hbm, 255, rfl⟩
abbrev main_v194 : Ref sig .tc := ⟨.hbm, 256, rfl⟩

abbrev nD : Nat := 1
abbrev τ : Topo := Topo.v7x

variable {F : FTy → Type} [FloatOps F]

class Facts₀ : Prop where
  shapeCasts_S1x2048x1024_S2048x1024 : S1x2048x1024.ShapeCasts S2048x1024
  bcast_S_S2048x1024 : S_.BroadcastsInDim S2048x1024 (![] : Fin 0 → Fin S2048x1024.rank)
  slices_S8x1024x2048_S1x1024x2048_0_0_0 : S8x1024x2048.Slices ![0, 0, 0] S1x1024x2048
  shapeCasts_S1x1024x2048_S1024x2048 : S1x1024x2048.ShapeCasts S1024x2048
  slices_S2048x2048_S2048x1024_0_0 : S2048x2048.Slices ![0, 0] S2048x1024
  slices_S2048x2048_S2048x1024_0_1024 : S2048x2048.Slices ![0, 1024] S2048x1024
  slices_S8x1024x1024_S1x1024x1024_0_0_0 : S8x1024x1024.Slices ![0, 0, 0] S1x1024x1024
  shapeCasts_S1x1024x1024_S1024x1024 : S1x1024x1024.ShapeCasts S1024x1024
  bcast_S_S2048x2 : S_.BroadcastsInDim S2048x2 (![] : Fin 0 → Fin S2048x2.rank)
  reducesTo_S2048x2_S2048_d1 : S2048x2.ReducesTo [1] S2048
  h_S_ : 0 < S_.numel
  bcast_S2048_S2048x1_0 : S2048.BroadcastsInDim S2048x1 (![0] : Fin 1 → Fin S2048x1.rank)
  bcast_S2048x1_S2048x1024_0_1 : S2048x1.BroadcastsInDim S2048x1024 (![0, 1] : Fin 2 → Fin S2048x1024.rank)
  slices_S8x1024x2048_S1x1024x2048_1_0_0 : S8x1024x2048.Slices ![1, 0, 0] S1x1024x2048
  slices_S8x1024x1024_S1x1024x1024_1_0_0 : S8x1024x1024.Slices ![1, 0, 0] S1x1024x1024
  slices_S8x1024x2048_S1x1024x2048_2_0_0 : S8x1024x2048.Slices ![2, 0, 0] S1x1024x2048
  slices_S8x1024x1024_S1x1024x1024_2_0_0 : S8x1024x1024.Slices ![2, 0, 0] S1x1024x1024
  slices_S8x1024x2048_S1x1024x2048_3_0_0 : S8x1024x2048.Slices ![3, 0, 0] S1x1024x2048
  slices_S8x1024x1024_S1x1024x1024_3_0_0 : S8x1024x1024.Slices ![3, 0, 0] S1x1024x1024
  slices_S8x1024x2048_S1x1024x2048_4_0_0 : S8x1024x2048.Slices ![4, 0, 0] S1x1024x2048
  slices_S8x1024x1024_S1x1024x1024_4_0_0 : S8x1024x1024.Slices ![4, 0, 0] S1x1024x1024
  slices_S8x1024x2048_S1x1024x2048_5_0_0 : S8x1024x2048.Slices ![5, 0, 0] S1x1024x2048
  slices_S8x1024x1024_S1x1024x1024_5_0_0 : S8x1024x1024.Slices ![5, 0, 0] S1x1024x1024
  slices_S8x1024x2048_S1x1024x2048_6_0_0 : S8x1024x2048.Slices ![6, 0, 0] S1x1024x2048
  slices_S8x1024x1024_S1x1024x1024_6_0_0 : S8x1024x1024.Slices ![6, 0, 0] S1x1024x1024
  slices_S8x1024x2048_S1x1024x2048_7_0_0 : S8x1024x2048.Slices ![7, 0, 0] S1x1024x2048
  slices_S8x1024x1024_S1x1024x1024_7_0_0 : S8x1024x1024.Slices ![7, 0, 0] S1x1024x1024
  shapeCasts_S2048x1024_S1x2048x1024 : S2048x1024.ShapeCasts S1x2048x1024
  dot_S2048x1024_S1024x2048_S2048x2048_1_0_0_1_n_n_wf : DotDims.WF S2048x1024 S1024x2048 S2048x2048 [1] [0] [0] [1] [] []
  dot_S2048x1024_S1024x1024_S2048x1024_1_0_0_1_n_n_wf : DotDims.WF S2048x1024 S1024x1024 S2048x1024 [1] [0] [0] [1] [] []

variable [Facts₀]

def dot_S2048x1024_S1024x2048_S2048x2048_1_0_0_1_n_n : DotDims S2048x1024 S1024x2048 S2048x2048 where
  lhsContracting := [1]
  rhsContracting := [0]
  lhsNonContracting := [0]
  rhsNonContracting := [1]
  lhsBatch := []
  rhsBatch := []
  wf := dot_S2048x1024_S1024x2048_S2048x2048_1_0_0_1_n_n_wf
def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf

class Facts : Prop extends Facts₀ where

variable [Facts]
-- ==== Proof.Body.lean ====
/-
  The kernel at one grid point, and what it leaves behind.

  The grid is 4 token blocks by 8 experts, walked expert-fastest: point `t` is token block `t / 8`, expert `t % 8`. At
  every point the body computes one expert's scaled result for the 512 tokens of the block (the stored value
  `k0_pay1`). At the first expert of a block (`t % 8 = 0`) it stores that into the output block; at each later
  expert (`t % 8 ≠ 0`) it stores the block's previous contents plus that (`k0_pay2`). Exactly one of the two branches is
  taken at every point, so the output block is never left untouched, and it is written back to the array only after
  the last expert (`t % 8 = 7`): between two points of one token block the staging buffer keeps the running sum.

  `outAt` is that running sum by recursion on the point; the proof data name it as the output window's contents after
  each point, every input window's as its block; the body's triple in each case gives the obligation; and the
  launch runs the region between the reshape before it and the reshape after it.
-/
import proofs.«140114_g77670188581355_cont_9to1_m_704_4_alg».proof.Proof.Gen.KernelIdeal.Frame
import proofs.«140114_g77670188581355_cont_9to1_m_704_4_alg».proof.Proof.Gen.KernelIdeal.Skeleton
import proofs.«140114_g77670188581355_cont_9to1_m_704_4_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which branch a point takes -/

/-- The store-only branch is taken exactly at the first expert of a token block. -/
theorem hfirst : ∀ t : Fin cfg0.N, k0_cond1 (grid0.coords t) = 1#1 ↔ t.val % 8 = 0 :=
  (by decide +kernel : ∀ t : Fin grid0.N, k0_cond1 (grid0.coords t) = 1#1 ↔ t.val % 8 = 0)
/-- The add-and-store branch is taken exactly at the later experts. -/
theorem hlater : ∀ t : Fin cfg0.N, k0_cond2 (grid0.coords t) = 1#1 ↔ ¬t.val % 8 = 0 :=
  (by decide +kernel : ∀ t : Fin grid0.N, k0_cond2 (grid0.coords t) = 1#1 ↔ ¬t.val % 8 = 0)

/-! ## The staging memrefs at a point -/

/-- Each window's current staging memref at point `t`, as the pipeline passes it to the body, and its wholeness. -/
abbrev ms0 (t : Fin cfg0.N) : Memref sig .tc .vmem S512x2 .i32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x2 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024x2048 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x1024 .f32 := win0_5.stage (cfg0.slots t 5)
abbrev hs5 (t : Fin cfg0.N) : (ms5 t).IsWhole := hstage0_5 ((cfg0.slots t 5).cast nbuf0_5)

/-! ## The body's triple, case by case -/

set_option maxHeartbeats 4000000 in
/-- At a first expert: on whole staging memrefs, the five inputs at contents `x0 … x4` and the output at any contents
    `xo`, the body runs to a continuation that holds the inputs as they were and the output with the pieces `L` written
    (the run finds them: one store of the whole block). -/
noncomputable def runFirst (c : Dev nD) (i : grid0.Coords)
    (arg2 : Memref sig .tc .vmem S512x2 .i32) (harg2 : arg2.IsWhole) (arg3 : Memref sig .tc .vmem S512x2 .f32) (harg3 : arg3.IsWhole)
    (arg4 : Memref sig .tc .vmem S512x1024 .f32) (harg4 : arg4.IsWhole) (arg5 : Memref sig .tc .vmem S1x1024x2048 .f32) (harg5 : arg5.IsWhole)
    (arg6 : Memref sig .tc .vmem S1x1024x1024 .f32) (harg6 : arg6.IsWhole) (arg7 : Memref sig .tc .vmem S512x1024 .f32) (harg7 : arg7.IsWhole)
    (h1 : k0_cond1 i = 1#1) (h2 : ¬k0_cond2 i = 1#1)
    (x0 : Vec F S512x2 .i32) (x1 : Vec F S512x2 .f32) (x2 : Vec F S512x1024 .f32) (x3 : Vec F S1x1024x2048 .f32)
    (x4 : Vec F S1x1024x1024 .f32) (xo : Vec F S512x1024 .f32) :
    { L : List (View.Piece (Elt F) S512x1024 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4 ∗ owns (c : Thread nD τ) arg7 fullShare xo
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ owns (c : Thread nD τ) arg6 fullShare x4
                ∗ (∃ f, arg7.view.loc (c : Thread nD τ) ↦[arg7.view.set]{fullShare} arg7.view.writes (Elt F) f L)) -∗ K ⟨⟩))
          ⊢ wp frame (wpE (defs₀ (F := F)) Variants.none c none) E
              (cc0__moe_block i arg2 harg2 arg3 harg3 arg4 harg4 arg5 harg5 arg6 harg6 arg7 harg7) K } := by
  refine ⟨?_, fun E K => ?run⟩
  case run =>
    simp only [cc0__moe_block_eq_skeleton]; unfold cc0__moe_block_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact h1 | exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

set_option maxHeartbeats 4000000 in
/-- At a later expert: the same, the output's buffer at the running sum `xo`, which the body reads before it stores. -/
noncomputable def runLater (c : Dev nD) (i : grid0.Coords)
    (arg2 : Memref sig .tc .vmem S512x2 .i32) (harg2 : arg2.IsWhole) (arg3 : Memref sig .tc .vmem S512x2 .f32) (harg3 : arg3.IsWhole)
    (arg4 : Memref sig .tc .vmem S512x1024 .f32) (harg4 : arg4.IsWhole) (arg5 : Memref sig .tc .vmem S1x1024x2048 .f32) (harg5 : arg5.IsWhole)
    (arg6 : Memref sig .tc .vmem S1x1024x1024 .f32) (harg6 : arg6.IsWhole) (arg7 : Memref sig .tc .vmem S512x1024 .f32) (harg7 : arg7.IsWhole)
    (h1 : ¬k0_cond1 i = 1#1) (h2 : k0_cond2 i = 1#1)
    (x0 : Vec F S512x2 .i32) (x1 : Vec F S512x2 .f32) (x2 : Vec F S512x1024 .f32) (x3 : Vec F S1x1024x2048 .f32)
    (x4 : Vec F S1x1024x1024 .f32) (xo : Vec F S512x1024 .f32) :
    { L : List (View.Piece (Elt F) S512x1024 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4 ∗ owns (c : Thread nD τ) arg7 fullShare xo
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ owns (c : Thread nD τ) arg6 fullShare x4
                ∗ (∃ f, arg7.view.loc (c : Thread nD τ) ↦[arg7.view.set]{fullShare} arg7.view.writes (Elt F) f L)) -∗ K ⟨⟩))
          ⊢ wp frame (wpE (defs₀ (F := F)) Variants.none c none) E
              (cc0__moe_block i arg2 harg2 arg3 harg3 arg4 harg4 arg5 harg5 arg6 harg6 arg7 harg7) K } := by
  refine ⟨?_, fun E K => ?run⟩
  case run =>
    simp only [cc0__moe_block_eq_skeleton]; unfold cc0__moe_block_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact h1 | exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

/-! ## What each case stores -/

theorem zero2 : (![0, 0] : Fin 2 → ℕ) = fun _ => 0 := by
  funext a; match a with | ⟨0, _⟩ => rfl | ⟨1, _⟩ => rfl
theorem zero3 : (![0, 0, 0] : Fin 3 → ℕ) = fun _ => 0 := by
  funext a; match a with | ⟨0, _⟩ => rfl | ⟨1, _⟩ => rfl | ⟨2, _⟩ => rfl

/-- At a first expert the one store covers the block, -/
theorem coverFirst (c : Dev nD) (i : grid0.Coords)
    (arg2 : Memref sig .tc .vmem S512x2 .i32) (harg2 : arg2.IsWhole) (arg3 : Memref sig .tc .vmem S512x2 .f32) (harg3 : arg3.IsWhole)
    (arg4 : Memref sig .tc .vmem S512x1024 .f32) (harg4 : arg4.IsWhole) (arg5 : Memref sig .tc .vmem S1x1024x2048 .f32) (harg5 : arg5.IsWhole)
    (arg6 : Memref sig .tc .vmem S1x1024x1024 .f32) (harg6 : arg6.IsWhole) (arg7 : Memref sig .tc .vmem S512x1024 .f32) (harg7 : arg7.IsWhole)
    (h1 : k0_cond1 i = 1#1) (h2 : ¬k0_cond2 i = 1#1)
    (x0 : Vec F S512x2 .i32) (x1 : Vec F S512x2 .f32) (x2 : Vec F S512x1024 .f32) (x3 : Vec F S1x1024x2048 .f32)
    (x4 : Vec F S1x1024x1024 .f32) (xo : Vec F S512x1024 .f32) (y : S512x1024.Idx) :
    ∃ pc ∈ (runFirst c i arg2 harg2 arg3 harg3 arg4 harg4 arg5 harg5 arg6 harg6 arg7 harg7 h1 h2 x0 x1 x2 x3 x4 xo).1, y ∈ pc.1.set :=
  View.cover_of_tiledL (runFirst c i arg2 harg2 arg3 harg3 arg4 harg4 arg5 harg5 arg6 harg6 arg7 harg7 h1 h2 x0 x1 x2 x3 x4 xo).1
    S512x1024.size (by sl_kernel_rfl) y

/-- and what it leaves is the expert's scaled result for the block, whatever the buffer held. -/
theorem canonFirst (c : Dev nD) (i : grid0.Coords)
    (arg2 : Memref sig .tc .vmem S512x2 .i32) (harg2 : arg2.IsWhole) (arg3 : Memref sig .tc .vmem S512x2 .f32) (harg3 : arg3.IsWhole)
    (arg4 : Memref sig .tc .vmem S512x1024 .f32) (harg4 : arg4.IsWhole) (arg5 : Memref sig .tc .vmem S1x1024x2048 .f32) (harg5 : arg5.IsWhole)
    (arg6 : Memref sig .tc .vmem S1x1024x1024 .f32) (harg6 : arg6.IsWhole) (arg7 : Memref sig .tc .vmem S512x1024 .f32) (harg7 : arg7.IsWhole)
    (h1 : k0_cond1 i = 1#1) (h2 : ¬k0_cond2 i = 1#1)
    (x0 : Vec F S512x2 .i32) (x1 : Vec F S512x2 .f32) (x2 : Vec F S512x1024 .f32) (x3 : Vec F S1x1024x2048 .f32)
    (x4 : Vec F S1x1024x1024 .f32) (xo : Vec F S512x1024 .f32) :
    View.canon (runFirst c i arg2 harg2 arg3 harg3 arg4 harg4 arg5 harg5 arg6 harg6 arg7 harg7 h1 h2 x0 x1 x2 x3 x4 xo).1
      = k0_pay1 i x2 x3 x4 x0 x1 := by
  unfold runFirst
  dsimp only
  sl_unfold_words
  rw [View.canon_unit_zero zero2]
  simp only [View.readAt_eq_ld, Memref.IsWhole.read_unread, View.ld_unit_zero (S := S512x1024) zero2,
    View.ld_unit_zero (S := S512x2) zero2, View.ld_unit_zero (S := S1x1024x2048) zero3,
    View.ld_unit_zero (S := S1x1024x1024) zero3]

/-- At a later expert the one store covers the block, -/
theorem coverLater (c : Dev nD) (i : grid0.Coords)
    (arg2 : Memref sig .tc .vmem S512x2 .i32) (harg2 : arg2.IsWhole) (arg3 : Memref sig .tc .vmem S512x2 .f32) (harg3 : arg3.IsWhole)
    (arg4 : Memref sig .tc .vmem S512x1024 .f32) (harg4 : arg4.IsWhole) (arg5 : Memref sig .tc .vmem S1x1024x2048 .f32) (harg5 : arg5.IsWhole)
    (arg6 : Memref sig .tc .vmem S1x1024x1024 .f32) (harg6 : arg6.IsWhole) (arg7 : Memref sig .tc .vmem S512x1024 .f32) (harg7 : arg7.IsWhole)
    (h1 : ¬k0_cond1 i = 1#1) (h2 : k0_cond2 i = 1#1)
    (x0 : Vec F S512x2 .i32) (x1 : Vec F S512x2 .f32) (x2 : Vec F S512x1024 .f32) (x3 : Vec F S1x1024x2048 .f32)
    (x4 : Vec F S1x1024x1024 .f32) (xo : Vec F S512x1024 .f32) (y : S512x1024.Idx) :
    ∃ pc ∈ (runLater c i arg2 harg2 arg3 harg3 arg4 harg4 arg5 harg5 arg6 harg6 arg7 harg7 h1 h2 x0 x1 x2 x3 x4 xo).1, y ∈ pc.1.set :=
  View.cover_of_tiledL (runLater c i arg2 harg2 arg3 harg3 arg4 harg4 arg5 harg5 arg6 harg6 arg7 harg7 h1 h2 x0 x1 x2 x3 x4 xo).1
    S512x1024.size (by sl_kernel_rfl) y

/-- and what it leaves is the running sum `xo` plus the expert's scaled result. -/
theorem canonLater (c : Dev nD) (i : grid0.Coords)
    (arg2 : Memref sig .tc .vmem S512x2 .i32) (harg2 : arg2.IsWhole) (arg3 : Memref sig .tc .vmem S512x2 .f32) (harg3 : arg3.IsWhole)
    (arg4 : Memref sig .tc .vmem S512x1024 .f32) (harg4 : arg4.IsWhole) (arg5 : Memref sig .tc .vmem S1x1024x2048 .f32) (harg5 : arg5.IsWhole)
    (arg6 : Memref sig .tc .vmem S1x1024x1024 .f32) (harg6 : arg6.IsWhole) (arg7 : Memref sig .tc .vmem S512x1024 .f32) (harg7 : arg7.IsWhole)
    (h1 : ¬k0_cond1 i = 1#1) (h2 : k0_cond2 i = 1#1)
    (x0 : Vec F S512x2 .i32) (x1 : Vec F S512x2 .f32) (x2 : Vec F S512x1024 .f32) (x3 : Vec F S1x1024x2048 .f32)
    (x4 : Vec F S1x1024x1024 .f32) (xo : Vec F S512x1024 .f32) :
    View.canon (runLater c i arg2 harg2 arg3 harg3 arg4 harg4 arg5 harg5 arg6 harg6 arg7 harg7 h1 h2 x0 x1 x2 x3 x4 xo).1
      = k0_pay2 i x2 x3 x4 x0 x1 xo := by
  unfold runLater
  dsimp only
  sl_unfold_words
  rw [View.canon_unit_zero zero2]
  simp only [View.readAt_eq_ld, Memref.IsWhole.read_unread, View.ld_unit_zero (S := S512x1024) zero2,
    View.ld_unit_zero (S := S512x2) zero2, View.ld_unit_zero (S := S1x1024x2048) zero3,
    View.ld_unit_zero (S := S1x1024x1024) zero3]

/-! ## The output window is live at every point -/

/-- An expert's number is zero or above zero: one of the two branches stores into the output block at every point. -/
theorem live5 : ∀ i : grid0.Coords, cfg0.idle 5 i = false := by
  intro i
  have key : ∀ e : Fin 8, idle0 5 (fun a => match a with | ⟨0, _⟩ => (0 : Fin 4) | ⟨1, _⟩ => e) = false := by decide +kernel
  exact key (i 1)

/-! ## The running sum -/

/-- What the output block's staging buffer holds after the body at position `n`: at the first expert of a token block
    that expert's scaled result; at a later one what position `n - 1` left plus this expert's. -/
def outAt (c : Dev nD) : (n : ℕ) → n < cfg0.N → Vec F S512x1024 .f32
  | 0, hn => k0_pay1 (grid0.coords ⟨0, hn⟩) (iblk m c 2 ⟨0, hn⟩) (iblk m c 3 ⟨0, hn⟩) (iblk m c 4 ⟨0, hn⟩) (iblk m c 0 ⟨0, hn⟩) (iblk m c 1 ⟨0, hn⟩)
  | n + 1, hn =>
    if (n + 1) % 8 = 0 then
      k0_pay1 (grid0.coords ⟨n + 1, hn⟩) (iblk m c 2 ⟨n + 1, hn⟩) (iblk m c 3 ⟨n + 1, hn⟩) (iblk m c 4 ⟨n + 1, hn⟩) (iblk m c 0 ⟨n + 1, hn⟩) (iblk m c 1 ⟨n + 1, hn⟩)
    else
      k0_pay2 (grid0.coords ⟨n + 1, hn⟩) (iblk m c 2 ⟨n + 1, hn⟩) (iblk m c 3 ⟨n + 1, hn⟩) (iblk m c 4 ⟨n + 1, hn⟩) (iblk m c 0 ⟨n + 1, hn⟩) (iblk m c 1 ⟨n + 1, hn⟩)
        (outAt c n (Nat.lt_of_succ_lt hn))

theorem outAt_first (c : Dev nD) (t : Fin cfg0.N) (h : t.val % 8 = 0) :
    outAt m c t.val t.isLt = k0_pay1 (grid0.coords t) (iblk m c 2 t) (iblk m c 3 t) (iblk m c 4 t) (iblk m c 0 t) (iblk m c 1 t) := by
  obtain ⟨n, hn⟩ := t
  cases n with
  | zero => exact rfl
  | succ n => exact (if_pos h).trans rfl

theorem outAt_later (c : Dev nD) (t : Fin cfg0.N) (h : ¬t.val % 8 = 0) :
    outAt m c t.val t.isLt = k0_pay2 (grid0.coords t) (iblk m c 2 t) (iblk m c 3 t) (iblk m c 4 t) (iblk m c 0 t) (iblk m c 1 t)
      (outAt m c (t.val - 1) (Nat.lt_of_le_of_lt (Nat.sub_le _ _) t.isLt)) := by
  obtain ⟨n, hn⟩ := t
  cases n with
  | zero => exact absurd (Nat.zero_mod _) h
  | succ n => exact (if_neg h).trans rfl

/-! ## The pipeline's proof data -/

/-- The arrays as the region finds them; after the body each input window's buffer at its block and the output
    window's at the running sum; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outAt m c t.val t.isLt := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- At a later expert the output's staging buffer holds what the point before left: the point is not the first, the
    block is written back only after a token block's last expert, and the window is live and uncut. -/
theorem before5_later (c : Dev nD) (t : Fin cfg0.N) (h0 : ¬t.val % 8 = 0) (d) :
    (dats m 0 c).before 5 t d = outAt m c (t.val - 1) (Nat.lt_of_le_of_lt (Nat.sub_le _ _) t.isLt) := by
  have hN : t.val < 32 := lt_of_lt_of_eq t.isLt (show cfg0.N = 32 from N_0)
  rw [Dat.before_out_kept _ 5 rfl t (by omega) (Bool.eq_false_iff.mpr fun h => by have := (flush0_5 _).mp h; dsimp only at this; omega)
    live5 (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

set_option maxHeartbeats 4000000 in
/-- The body at any point: the inputs' buffers hold their blocks; the point's position among its token block's experts
    says which case it is in; at a later expert the output's buffer holds the running sum; so that case's triple
    applies, and what its one store leaves is the next running sum. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  by_cases h0 : t.val % 8 = 0
  · rw [outAt_first m c t h0]
    iintro ⟨HΦ, Ho, ⟨%d0, H0⟩, ⟨%d1, H1⟩, ⟨%d2, H2⟩, ⟨%d3, H3⟩, ⟨%d4, H4⟩, ⟨%d5, H5⟩⟩
    iapply ((runFirst c (grid0.coords t) _ _ _ _ _ _ _ _ _ _ _ _ ((hfirst t).mpr h0) (fun h => ((hlater t).mp h) h0)
      (iblk m c 0 t) (iblk m c 1 t) (iblk m c 2 t) (iblk m c 3 t) (iblk m c 4 t) ((dats m 0 c).before 5 t d5)).2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro
    exact (View.read_writes_eq_canon _ _ _ (coverFirst c _ _ _ _ _ _ _ _ _ _ _ _ _ _ _ _ _ _ _ _ _)).trans
      (canonFirst c _ _ _ _ _ _ _ _ _ _ _ _ _ _ _ _ _ _ _ _ _)
  · rw [outAt_later m c t h0]
    simp only [before5_later m c t h0]
    iintro ⟨HΦ, Ho, ⟨%d0, H0⟩, ⟨%d1, H1⟩, ⟨%d2, H2⟩, ⟨%d3, H3⟩, ⟨%d4, H4⟩, ⟨%d5, H5⟩⟩
    iapply ((runLater c (grid0.coords t) _ _ _ _ _ _ _ _ _ _ _ _ (fun h => h0 ((hfirst t).mp h)) ((hlater t).mpr h0)
      (iblk m c 0 t) (iblk m c 1 t) (iblk m c 2 t) (iblk m c 3 t) (iblk m c 4 t)
      (outAt m c (t.val - 1) (Nat.lt_of_le_of_lt (Nat.sub_le _ _) t.isLt))).2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro
    exact (View.read_writes_eq_canon _ _ _ (coverLater c _ _ _ _ _ _ _ _ _ _ _ _ _ _ _ _ _ _ _ _ _)).trans
      (canonLater c _ _ _ _ _ _ _ _ _ _ _ _ _ _ _ _ _ _ _ _ _)

set_option maxHeartbeats 1000000 in
/-- The library's body obligation, at every point: the output window is live there, so the body hands its buffer back
    at the next running sum. -/
theorem body_obligation (c : Dev nD) : BodyObligation (dats (F := F) m 0 c) (defs₀ (F := F)) Variants.none () Set.univ := fun t => by
  rw [bigSep_W0, bigSep_W0]
  have h5 : idle0 5 (grid0.coords t) = false := live5 _
  simp only [h5]
  exact sound_body m c t

/-! ## The run and the frame -/

set_option backward.isDefEq.respectTransparency.types false in
/-- Every weakly fair execution of @main terminates, and every final state has every array of the pipeline at what the
    proof data say and every other unscoped buffer as the reshape after the region leaves it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to the end, faults nowhere, and leaves its five argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Body

end
-- ==== Proof.BodyBits.lean ====
/-
  The kernel at one grid point, and what it leaves behind.

  The grid is 4 token blocks by 8 experts, walked expert-fastest: point `t` is token block `t / 8`, expert `t % 8`. At
  every point the body computes one expert's scaled result for the 512 tokens of the block (the stored value
  `k0_pay1`). At the first expert of a block (`t % 8 = 0`) it stores that into the output block; at each later
  expert (`t % 8 ≠ 0`) it stores the block's previous contents plus that (`k0_pay2`). Exactly one of the two branches is
  taken at every point, so the output block is never left untouched, and it is written back to the array only after
  the last expert (`t % 8 = 7`): between two points of one token block the staging buffer keeps the running sum.

  `outAt` is that running sum by recursion on the point; the proof data name it as the output window's contents after
  each point, every input window's as its block; the body's triple in each case gives the obligation; and the
  launch runs the region between the reshape before it and the reshape after it.
-/
import proofs.«140114_g77670188581355_cont_9to1_m_704_4_alg».proof.Proof.Gen.Kernel.Frame
import proofs.«140114_g77670188581355_cont_9to1_m_704_4_alg».proof.Proof.Gen.Kernel.Skeleton
import proofs.«140114_g77670188581355_cont_9to1_m_704_4_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which branch a point takes -/

/-- The store-only branch is taken exactly at the first expert of a token block. -/
theorem hfirst : ∀ t : Fin cfg0.N, k0_cond1 (grid0.coords t) = 1#1 ↔ t.val % 8 = 0 :=
  (by decide +kernel : ∀ t : Fin grid0.N, k0_cond1 (grid0.coords t) = 1#1 ↔ t.val % 8 = 0)
/-- The add-and-store branch is taken exactly at the later experts. -/
theorem hlater : ∀ t : Fin cfg0.N, k0_cond2 (grid0.coords t) = 1#1 ↔ ¬t.val % 8 = 0 :=
  (by decide +kernel : ∀ t : Fin grid0.N, k0_cond2 (grid0.coords t) = 1#1 ↔ ¬t.val % 8 = 0)

/-! ## The staging memrefs at a point -/

/-- Each window's current staging memref at point `t`, as the pipeline passes it to the body, and its wholeness. -/
abbrev ms0 (t : Fin cfg0.N) : Memref sig .tc .vmem S512x2 .i32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x2 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024x2048 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x1024 .f32 := win0_5.stage (cfg0.slots t 5)
abbrev hs5 (t : Fin cfg0.N) : (ms5 t).IsWhole := hstage0_5 ((cfg0.slots t 5).cast nbuf0_5)

/-! ## The body's triple, case by case -/

set_option maxHeartbeats 4000000 in
/-- At a first expert: on whole staging memrefs, the five inputs at contents `x0 … x4` and the output at any contents
    `xo`, the body runs to a continuation that holds the inputs as they were and the output with the pieces `L` written
    (the run finds them: one store of the whole block). -/
noncomputable def runFirst (c : Dev nD) (i : grid0.Coords)
    (arg2 : Memref sig .tc .vmem S512x2 .i32) (harg2 : arg2.IsWhole) (arg3 : Memref sig .tc .vmem S512x2 .f32) (harg3 : arg3.IsWhole)
    (arg4 : Memref sig .tc .vmem S512x1024 .f32) (harg4 : arg4.IsWhole) (arg5 : Memref sig .tc .vmem S1x1024x2048 .f32) (harg5 : arg5.IsWhole)
    (arg6 : Memref sig .tc .vmem S1x1024x1024 .f32) (harg6 : arg6.IsWhole) (arg7 : Memref sig .tc .vmem S512x1024 .f32) (harg7 : arg7.IsWhole)
    (h1 : k0_cond1 i = 1#1) (h2 : ¬k0_cond2 i = 1#1)
    (x0 : Vec F S512x2 .i32) (x1 : Vec F S512x2 .f32) (x2 : Vec F S512x1024 .f32) (x3 : Vec F S1x1024x2048 .f32)
    (x4 : Vec F S1x1024x1024 .f32) (xo : Vec F S512x1024 .f32) :
    { L : List (View.Piece (Elt F) S512x1024 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4 ∗ owns (c : Thread nD τ) arg7 fullShare xo
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ owns (c : Thread nD τ) arg6 fullShare x4
                ∗ (∃ f, arg7.view.loc (c : Thread nD τ) ↦[arg7.view.set]{fullShare} arg7.view.writes (Elt F) f L)) -∗ K ⟨⟩))
          ⊢ wp frame (wpE (defs₀ (F := F)) Variants.none c none) E
              (cc0__moe_block i arg2 harg2 arg3 harg3 arg4 harg4 arg5 harg5 arg6 harg6 arg7 harg7) K } := by
  refine ⟨?_, fun E K => ?run⟩
  case run =>
    simp only [cc0__moe_block_eq_skeleton]; unfold cc0__moe_block_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact h1 | exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

set_option maxHeartbeats 4000000 in
/-- At a later expert: the same, the output's buffer at the running sum `xo`, which the body reads before it stores. -/
noncomputable def runLater (c : Dev nD) (i : grid0.Coords)
    (arg2 : Memref sig .tc .vmem S512x2 .i32) (harg2 : arg2.IsWhole) (arg3 : Memref sig .tc .vmem S512x2 .f32) (harg3 : arg3.IsWhole)
    (arg4 : Memref sig .tc .vmem S512x1024 .f32) (harg4 : arg4.IsWhole) (arg5 : Memref sig .tc .vmem S1x1024x2048 .f32) (harg5 : arg5.IsWhole)
    (arg6 : Memref sig .tc .vmem S1x1024x1024 .f32) (harg6 : arg6.IsWhole) (arg7 : Memref sig .tc .vmem S512x1024 .f32) (harg7 : arg7.IsWhole)
    (h1 : ¬k0_cond1 i = 1#1) (h2 : k0_cond2 i = 1#1)
    (x0 : Vec F S512x2 .i32) (x1 : Vec F S512x2 .f32) (x2 : Vec F S512x1024 .f32) (x3 : Vec F S1x1024x2048 .f32)
    (x4 : Vec F S1x1024x1024 .f32) (xo : Vec F S512x1024 .f32) :
    { L : List (View.Piece (Elt F) S512x1024 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4 ∗ owns (c : Thread nD τ) arg7 fullShare xo
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ owns (c : Thread nD τ) arg6 fullShare x4
                ∗ (∃ f, arg7.view.loc (c : Thread nD τ) ↦[arg7.view.set]{fullShare} arg7.view.writes (Elt F) f L)) -∗ K ⟨⟩))
          ⊢ wp frame (wpE (defs₀ (F := F)) Variants.none c none) E
              (cc0__moe_block i arg2 harg2 arg3 harg3 arg4 harg4 arg5 harg5 arg6 harg6 arg7 harg7) K } := by
  refine ⟨?_, fun E K => ?run⟩
  case run =>
    simp only [cc0__moe_block_eq_skeleton]; unfold cc0__moe_block_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact h1 | exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

/-! ## What each case stores -/

theorem zero2 : (![0, 0] : Fin 2 → ℕ) = fun _ => 0 := by
  funext a; match a with | ⟨0, _⟩ => rfl | ⟨1, _⟩ => rfl
theorem zero3 : (![0, 0, 0] : Fin 3 → ℕ) = fun _ => 0 := by
  funext a; match a with | ⟨0, _⟩ => rfl | ⟨1, _⟩ => rfl | ⟨2, _⟩ => rfl

/-- At a first expert the one store covers the block, -/
theorem coverFirst (c : Dev nD) (i : grid0.Coords)
    (arg2 : Memref sig .tc .vmem S512x2 .i32) (harg2 : arg2.IsWhole) (arg3 : Memref sig .tc .vmem S512x2 .f32) (harg3 : arg3.IsWhole)
    (arg4 : Memref sig .tc .vmem S512x1024 .f32) (harg4 : arg4.IsWhole) (arg5 : Memref sig .tc .vmem S1x1024x2048 .f32) (harg5 : arg5.IsWhole)
    (arg6 : Memref sig .tc .vmem S1x1024x1024 .f32) (harg6 : arg6.IsWhole) (arg7 : Memref sig .tc .vmem S512x1024 .f32) (harg7 : arg7.IsWhole)
    (h1 : k0_cond1 i = 1#1) (h2 : ¬k0_cond2 i = 1#1)
    (x0 : Vec F S512x2 .i32) (x1 : Vec F S512x2 .f32) (x2 : Vec F S512x1024 .f32) (x3 : Vec F S1x1024x2048 .f32)
    (x4 : Vec F S1x1024x1024 .f32) (xo : Vec F S512x1024 .f32) (y : S512x1024.Idx) :
    ∃ pc ∈ (runFirst c i arg2 harg2 arg3 harg3 arg4 harg4 arg5 harg5 arg6 harg6 arg7 harg7 h1 h2 x0 x1 x2 x3 x4 xo).1, y ∈ pc.1.set :=
  View.cover_of_tiledL (runFirst c i arg2 harg2 arg3 harg3 arg4 harg4 arg5 harg5 arg6 harg6 arg7 harg7 h1 h2 x0 x1 x2 x3 x4 xo).1
    S512x1024.size (by sl_kernel_rfl) y

/-- and what it leaves is the expert's scaled result for the block, whatever the buffer held. -/
theorem canonFirst (c : Dev nD) (i : grid0.Coords)
    (arg2 : Memref sig .tc .vmem S512x2 .i32) (harg2 : arg2.IsWhole) (arg3 : Memref sig .tc .vmem S512x2 .f32) (harg3 : arg3.IsWhole)
    (arg4 : Memref sig .tc .vmem S512x1024 .f32) (harg4 : arg4.IsWhole) (arg5 : Memref sig .tc .vmem S1x1024x2048 .f32) (harg5 : arg5.IsWhole)
    (arg6 : Memref sig .tc .vmem S1x1024x1024 .f32) (harg6 : arg6.IsWhole) (arg7 : Memref sig .tc .vmem S512x1024 .f32) (harg7 : arg7.IsWhole)
    (h1 : k0_cond1 i = 1#1) (h2 : ¬k0_cond2 i = 1#1)
    (x0 : Vec F S512x2 .i32) (x1 : Vec F S512x2 .f32) (x2 : Vec F S512x1024 .f32) (x3 : Vec F S1x1024x2048 .f32)
    (x4 : Vec F S1x1024x1024 .f32) (xo : Vec F S512x1024 .f32) :
    View.canon (runFirst c i arg2 harg2 arg3 harg3 arg4 harg4 arg5 harg5 arg6 harg6 arg7 harg7 h1 h2 x0 x1 x2 x3 x4 xo).1
      = k0_pay1 i x2 x3 x4 x0 x1 := by
  unfold runFirst
  dsimp only
  sl_unfold_words
  rw [View.canon_unit_zero zero2]
  simp only [View.readAt_eq_ld, Memref.IsWhole.read_unread, View.ld_unit_zero (S := S512x1024) zero2,
    View.ld_unit_zero (S := S512x2) zero2, View.ld_unit_zero (S := S1x1024x2048) zero3,
    View.ld_unit_zero (S := S1x1024x1024) zero3]

/-- At a later expert the one store covers the block, -/
theorem coverLater (c : Dev nD) (i : grid0.Coords)
    (arg2 : Memref sig .tc .vmem S512x2 .i32) (harg2 : arg2.IsWhole) (arg3 : Memref sig .tc .vmem S512x2 .f32) (harg3 : arg3.IsWhole)
    (arg4 : Memref sig .tc .vmem S512x1024 .f32) (harg4 : arg4.IsWhole) (arg5 : Memref sig .tc .vmem S1x1024x2048 .f32) (harg5 : arg5.IsWhole)
    (arg6 : Memref sig .tc .vmem S1x1024x1024 .f32) (harg6 : arg6.IsWhole) (arg7 : Memref sig .tc .vmem S512x1024 .f32) (harg7 : arg7.IsWhole)
    (h1 : ¬k0_cond1 i = 1#1) (h2 : k0_cond2 i = 1#1)
    (x0 : Vec F S512x2 .i32) (x1 : Vec F S512x2 .f32) (x2 : Vec F S512x1024 .f32) (x3 : Vec F S1x1024x2048 .f32)
    (x4 : Vec F S1x1024x1024 .f32) (xo : Vec F S512x1024 .f32) (y : S512x1024.Idx) :
    ∃ pc ∈ (runLater c i arg2 harg2 arg3 harg3 arg4 harg4 arg5 harg5 arg6 harg6 arg7 harg7 h1 h2 x0 x1 x2 x3 x4 xo).1, y ∈ pc.1.set :=
  View.cover_of_tiledL (runLater c i arg2 harg2 arg3 harg3 arg4 harg4 arg5 harg5 arg6 harg6 arg7 harg7 h1 h2 x0 x1 x2 x3 x4 xo).1
    S512x1024.size (by sl_kernel_rfl) y

/-- and what it leaves is the running sum `xo` plus the expert's scaled result. -/
theorem canonLater (c : Dev nD) (i : grid0.Coords)
    (arg2 : Memref sig .tc .vmem S512x2 .i32) (harg2 : arg2.IsWhole) (arg3 : Memref sig .tc .vmem S512x2 .f32) (harg3 : arg3.IsWhole)
    (arg4 : Memref sig .tc .vmem S512x1024 .f32) (harg4 : arg4.IsWhole) (arg5 : Memref sig .tc .vmem S1x1024x2048 .f32) (harg5 : arg5.IsWhole)
    (arg6 : Memref sig .tc .vmem S1x1024x1024 .f32) (harg6 : arg6.IsWhole) (arg7 : Memref sig .tc .vmem S512x1024 .f32) (harg7 : arg7.IsWhole)
    (h1 : ¬k0_cond1 i = 1#1) (h2 : k0_cond2 i = 1#1)
    (x0 : Vec F S512x2 .i32) (x1 : Vec F S512x2 .f32) (x2 : Vec F S512x1024 .f32) (x3 : Vec F S1x1024x2048 .f32)
    (x4 : Vec F S1x1024x1024 .f32) (xo : Vec F S512x1024 .f32) :
    View.canon (runLater c i arg2 harg2 arg3 harg3 arg4 harg4 arg5 harg5 arg6 harg6 arg7 harg7 h1 h2 x0 x1 x2 x3 x4 xo).1
      = k0_pay2 i x2 x3 x4 x0 x1 xo := by
  unfold runLater
  dsimp only
  sl_unfold_words
  rw [View.canon_unit_zero zero2]
  simp only [View.readAt_eq_ld, Memref.IsWhole.read_unread, View.ld_unit_zero (S := S512x1024) zero2,
    View.ld_unit_zero (S := S512x2) zero2, View.ld_unit_zero (S := S1x1024x2048) zero3,
    View.ld_unit_zero (S := S1x1024x1024) zero3]

/-! ## The output window is live at every point -/

/-- An expert's number is zero or above zero: one of the two branches stores into the output block at every point. -/
theorem live5 : ∀ i : grid0.Coords, cfg0.idle 5 i = false := by
  intro i
  have key : ∀ e : Fin 8, idle0 5 (fun a => match a with | ⟨0, _⟩ => (0 : Fin 4) | ⟨1, _⟩ => e) = false := by decide +kernel
  exact key (i 1)

/-! ## The running sum -/

/-- What the output block's staging buffer holds after the body at position `n`: at the first expert of a token block
    that expert's scaled result; at a later one what position `n - 1` left plus this expert's. -/
def outAt (c : Dev nD) : (n : ℕ) → n < cfg0.N → Vec F S512x1024 .f32
  | 0, hn => k0_pay1 (grid0.coords ⟨0, hn⟩) (iblk m c 2 ⟨0, hn⟩) (iblk m c 3 ⟨0, hn⟩) (iblk m c 4 ⟨0, hn⟩) (iblk m c 0 ⟨0, hn⟩) (iblk m c 1 ⟨0, hn⟩)
  | n + 1, hn =>
    if (n + 1) % 8 = 0 then
      k0_pay1 (grid0.coords ⟨n + 1, hn⟩) (iblk m c 2 ⟨n + 1, hn⟩) (iblk m c 3 ⟨n + 1, hn⟩) (iblk m c 4 ⟨n + 1, hn⟩) (iblk m c 0 ⟨n + 1, hn⟩) (iblk m c 1 ⟨n + 1, hn⟩)
    else
      k0_pay2 (grid0.coords ⟨n + 1, hn⟩) (iblk m c 2 ⟨n + 1, hn⟩) (iblk m c 3 ⟨n + 1, hn⟩) (iblk m c 4 ⟨n + 1, hn⟩) (iblk m c 0 ⟨n + 1, hn⟩) (iblk m c 1 ⟨n + 1, hn⟩)
        (outAt c n (Nat.lt_of_succ_lt hn))

theorem outAt_first (c : Dev nD) (t : Fin cfg0.N) (h : t.val % 8 = 0) :
    outAt m c t.val t.isLt = k0_pay1 (grid0.coords t) (iblk m c 2 t) (iblk m c 3 t) (iblk m c 4 t) (iblk m c 0 t) (iblk m c 1 t) := by
  obtain ⟨n, hn⟩ := t
  cases n with
  | zero => exact rfl
  | succ n => exact (if_pos h).trans rfl

theorem outAt_later (c : Dev nD) (t : Fin cfg0.N) (h : ¬t.val % 8 = 0) :
    outAt m c t.val t.isLt = k0_pay2 (grid0.coords t) (iblk m c 2 t) (iblk m c 3 t) (iblk m c 4 t) (iblk m c 0 t) (iblk m c 1 t)
      (outAt m c (t.val - 1) (Nat.lt_of_le_of_lt (Nat.sub_le _ _) t.isLt)) := by
  obtain ⟨n, hn⟩ := t
  cases n with
  | zero => exact absurd (Nat.zero_mod _) h
  | succ n => exact (if_neg h).trans rfl

/-! ## The pipeline's proof data -/

/-- The arrays as the region finds them; after the body each input window's buffer at its block and the output
    window's at the running sum; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outAt m c t.val t.isLt := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- At a later expert the output's staging buffer holds what the point before left: the point is not the first, the
    block is written back only after a token block's last expert, and the window is live and uncut. -/
theorem before5_later (c : Dev nD) (t : Fin cfg0.N) (h0 : ¬t.val % 8 = 0) (d) :
    (dats m 0 c).before 5 t d = outAt m c (t.val - 1) (Nat.lt_of_le_of_lt (Nat.sub_le _ _) t.isLt) := by
  have hN : t.val < 32 := lt_of_lt_of_eq t.isLt (show cfg0.N = 32 from N_0)
  rw [Dat.before_out_kept _ 5 rfl t (by omega) (Bool.eq_false_iff.mpr fun h => by have := (flush0_5 _).mp h; dsimp only at this; omega)
    live5 (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

set_option maxHeartbeats 4000000 in
/-- The body at any point: the inputs' buffers hold their blocks; the point's position among its token block's experts
    says which case it is in; at a later expert the output's buffer holds the running sum; so that case's triple
    applies, and what its one store leaves is the next running sum. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  by_cases h0 : t.val % 8 = 0
  · rw [outAt_first m c t h0]
    iintro ⟨HΦ, Ho, ⟨%d0, H0⟩, ⟨%d1, H1⟩, ⟨%d2, H2⟩, ⟨%d3, H3⟩, ⟨%d4, H4⟩, ⟨%d5, H5⟩⟩
    iapply ((runFirst c (grid0.coords t) _ _ _ _ _ _ _ _ _ _ _ _ ((hfirst t).mpr h0) (fun h => ((hlater t).mp h) h0)
      (iblk m c 0 t) (iblk m c 1 t) (iblk m c 2 t) (iblk m c 3 t) (iblk m c 4 t) ((dats m 0 c).before 5 t d5)).2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro
    exact (View.read_writes_eq_canon _ _ _ (coverFirst c _ _ _ _ _ _ _ _ _ _ _ _ _ _ _ _ _ _ _ _ _)).trans
      (canonFirst c _ _ _ _ _ _ _ _ _ _ _ _ _ _ _ _ _ _ _ _ _)
  · rw [outAt_later m c t h0]
    simp only [before5_later m c t h0]
    iintro ⟨HΦ, Ho, ⟨%d0, H0⟩, ⟨%d1, H1⟩, ⟨%d2, H2⟩, ⟨%d3, H3⟩, ⟨%d4, H4⟩, ⟨%d5, H5⟩⟩
    iapply ((runLater c (grid0.coords t) _ _ _ _ _ _ _ _ _ _ _ _ (fun h => h0 ((hfirst t).mp h)) ((hlater t).mpr h0)
      (iblk m c 0 t) (iblk m c 1 t) (iblk m c 2 t) (iblk m c 3 t) (iblk m c 4 t)
      (outAt m c (t.val - 1) (Nat.lt_of_le_of_lt (Nat.sub_le _ _) t.isLt))).2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro
    exact (View.read_writes_eq_canon _ _ _ (coverLater c _ _ _ _ _ _ _ _ _ _ _ _ _ _ _ _ _ _ _ _ _)).trans
      (canonLater c _ _ _ _ _ _ _ _ _ _ _ _ _ _ _ _ _ _ _ _ _)

set_option maxHeartbeats 1000000 in
/-- The library's body obligation, at every point: the output window is live there, so the body hands its buffer back
    at the next running sum. -/
theorem body_obligation (c : Dev nD) : BodyObligation (dats (F := F) m 0 c) (defs₀ (F := F)) Variants.none () Set.univ := fun t => by
  rw [bigSep_W0, bigSep_W0]
  have h5 : idle0 5 (grid0.coords t) = false := live5 _
  simp only [h5]
  exact sound_body m c t

/-! ## The run and the frame -/

set_option backward.isDefEq.respectTransparency.types false in
/-- Every weakly fair execution of @main terminates, and every final state has every array of the pipeline at what the
    proof data say and every other unscoped buffer as the reshape after the region leaves it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to the end, faults nowhere, and leaves its five argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Body

end
-- ==== Proof.Blocks.lean ====
/-
  Where each window's block sits in its array.

  Point `t` of the grid works on token block `t / 8` for expert `t % 8`. The three token-indexed windows (slot experts,
  slot weights, hidden states) hold rows `512 · (t / 8) … 512 · (t / 8) + 511` of their arrays; the two expert-indexed
  windows hold slab `t % 8` of the gate-and-up and of the down matrices; the output window holds the same rows as the
  hidden states. The hidden states reach the region reshaped from `[1, 2048, 1024]` to `[2048, 1024]`, so row `r` of
  what the region reads is row `(0, r)` of the argument.
-/
import proofs.«140114_g77670188581355_cont_9to1_m_704_4_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Blocks

open Cert.KernelIdeal Cert.KernelIdeal.Gen
open Idealize.ShloMosaic Idealize.ShloMosaic.TcCoe Idealize.ShloMosaic.ValueIdx Idealize.ShloMosaic.StableHlo
open Idealize.SL.Sem

variable {F : FTy → Type} [FloatOps F]
variable (m : (ℓ : Loc nD τ sig) → Buf (Elt F) ℓ)

/-! ## The blocks, by name -/

/-- The slot-expert block, the slot-weight block, the hidden-state block, the expert's gate-and-up slab and its down
    slab at point `t`. -/
abbrev idblk (c : Dev nD) (t : Fin cfg0.N) : Vec F S512x2 .i32 := iblk m c 0 t
abbrev ewblk (c : Dev nD) (t : Fin cfg0.N) : Vec F S512x2 .f32 := iblk m c 1 t
abbrev xblk (c : Dev nD) (t : Fin cfg0.N) : Vec F S512x1024 .f32 := iblk m c 2 t
abbrev w1blk (c : Dev nD) (t : Fin cfg0.N) : Vec F S1x1024x2048 .f32 := iblk m c 3 t
abbrev w2blk (c : Dev nD) (t : Fin cfg0.N) : Vec F S1x1024x1024 .f32 := iblk m c 4 t

/-! ## The index maps over the grid -/

/-- The token-indexed windows sit at block row `t / 8`, the expert-indexed ones at slab `t % 8`; the second grid
    coordinate is `t % 8`. -/
theorem idx_facts : ∀ t : Fin cfg0.N,
    win0_0.index t (0 : Fin 2) = t.val / 8 ∧ win0_0.index t (1 : Fin 2) = 0
    ∧ win0_1.index t (0 : Fin 2) = t.val / 8 ∧ win0_1.index t (1 : Fin 2) = 0
    ∧ win0_2.index t (0 : Fin 2) = t.val / 8 ∧ win0_2.index t (1 : Fin 2) = 0
    ∧ win0_3.index t (0 : Fin 3) = t.val % 8 ∧ win0_3.index t (1 : Fin 3) = 0 ∧ win0_3.index t (2 : Fin 3) = 0
    ∧ win0_4.index t (0 : Fin 3) = t.val % 8 ∧ win0_4.index t (1 : Fin 3) = 0 ∧ win0_4.index t (2 : Fin 3) = 0
    ∧ win0_5.index t (0 : Fin 2) = t.val / 8 ∧ win0_5.index t (1 : Fin 2) = 0
    ∧ ((grid0.coords t) 1).val = t.val % 8 :=
  (by decide +kernel : ∀ t : Fin grid0.N, _)

/-! ## The hidden states as the region finds them -/

/-- The one host operation before the region reshapes the hidden states to two axes. -/
theorem V_hidden (c : Dev nD) :
    (V m c main_v0 : S2048x1024.Idx → Elt F .f32)
      = shapeCast S2048x1024 (m ((c : Thread nD τ).loc main_arg0)) shapeCasts_S1x2048x1024_S2048x1024 := by
  show StableHlo.after hostOps0 (fun b => m (c, b)) (Proc.devRef .tc main_v0) = _
  after_results
  rfl

/-! ## The blocks read at an entry -/

/-- Row `p` of the hidden-state block is row `512 · (t / 8) + p` of the hidden states. -/
theorem xblk_apply (c : Dev nD) (t : Fin cfg0.N) (p : Fin 512) (j : Fin 1024) (r : Fin 2048) (hr : r.val = 512 * (t.val / 8) + p.val) :
    xblk m c t (ix2 p j) = m ((c : Thread nD τ).loc main_arg0) (ix3 (0 : Fin 1) r j) := by
  obtain ⟨-, -, -, -, e0, e1, -⟩ := idx_facts t
  show V m c main_v0 (((cfg0.win 2).blk t).view.emb (ix2 p j)) = _
  have h : ((cfg0.win 2).blk t).view.emb (ix2 p j) = (ix2 r j : S2048x1024.Idx) := by
    funext a; apply Fin.ext
    match a with
    | ⟨0, _⟩ => show win0_2.index t (0 : Fin 2) * 512 + 1 * p.val = r.val; omega
    | ⟨1, _⟩ => show win0_2.index t (1 : Fin 2) * 1024 + 1 * j.val = j.val; omega
  rw [h]
  exact (congrFun (V_hidden m c) (ix2 r j)).trans (shapeCast_1ab_ab_apply _ _ r j)

/-- Row `p` of the slot-expert block is row `512 · (t / 8) + p` of the slot experts. -/
theorem idblk_apply (c : Dev nD) (t : Fin cfg0.N) (p : Fin 512) (s : Fin 2) (r : Fin 2048) (hr : r.val = 512 * (t.val / 8) + p.val) :
    idblk m c t (ix2 p s) = m ((c : Thread nD τ).loc main_arg3) (ix2 r s) := by
  obtain ⟨e0, e1, -⟩ := idx_facts t
  show V m c main_arg3 (((cfg0.win 0).blk t).view.emb (ix2 p s)) = _
  have h : ((cfg0.win 0).blk t).view.emb (ix2 p s) = (ix2 r s : S2048x2.Idx) := by
    funext a; apply Fin.ext
    match a with
    | ⟨0, _⟩ => show win0_0.index t (0 : Fin 2) * 512 + 1 * p.val = r.val; omega
    | ⟨1, _⟩ => show win0_0.index t (1 : Fin 2) * 2 + 1 * s.val = s.val; omega
  rw [h, V_main_arg3]

/-- Row `p` of the slot-weight block is row `512 · (t / 8) + p` of the slot weights. -/
theorem ewblk_apply (c : Dev nD) (t : Fin cfg0.N) (p : Fin 512) (s : Fin 2) (r : Fin 2048) (hr : r.val = 512 * (t.val / 8) + p.val) :
    ewblk m c t (ix2 p s) = m ((c : Thread nD τ).loc main_arg4) (ix2 r s) := by
  obtain ⟨-, -, e0, e1, -⟩ := idx_facts t
  show V m c main_arg4 (((cfg0.win 1).blk t).view.emb (ix2 p s)) = _
  have h : ((cfg0.win 1).blk t).view.emb (ix2 p s) = (ix2 r s : S2048x2.Idx) := by
    funext a; apply Fin.ext
    match a with
    | ⟨0, _⟩ => show win0_1.index t (0 : Fin 2) * 512 + 1 * p.val = r.val; omega
    | ⟨1, _⟩ => show win0_1.index t (1 : Fin 2) * 2 + 1 * s.val = s.val; omega
  rw [h, V_main_arg4]

/-- The gate-and-up slab at point `t` is expert `t % 8`'s matrix. -/
theorem w1blk_apply (c : Dev nD) (t : Fin cfg0.N) (j : Fin 1024) (n : Fin 2048) (e : Fin 8) (he : e.val = t.val % 8) :
    w1blk m c t (ix3 (0 : Fin 1) j n) = m ((c : Thread nD τ).loc main_arg1) (ix3 e j n) := by
  obtain ⟨-, -, -, -, -, -, e0, e1, e2, -⟩ := idx_facts t
  show V m c main_arg1 (((cfg0.win 3).blk t).view.emb (ix3 (0 : Fin 1) j n)) = _
  have h : ((cfg0.win 3).blk t).view.emb (ix3 (0 : Fin 1) j n) = (ix3 e j n : S8x1024x2048.Idx) := by
    funext a; apply Fin.ext
    match a with
    | ⟨0, _⟩ => show win0_3.index t (0 : Fin 3) * 1 + 1 * 0 = e.val; omega
    | ⟨1, _⟩ => show win0_3.index t (1 : Fin 3) * 1024 + 1 * j.val = j.val; omega
    | ⟨2, _⟩ => show win0_3.index t (2 : Fin 3) * 2048 + 1 * n.val = n.val; omega
  rw [h, V_main_arg1]

/-- The down slab at point `t` is expert `t % 8`'s matrix. -/
theorem w2blk_apply (c : Dev nD) (t : Fin cfg0.N) (k : Fin 1024) (q : Fin 1024) (e : Fin 8) (he : e.val = t.val % 8) :
    w2blk m c t (ix3 (0 : Fin 1) k q) = m ((c : Thread nD τ).loc main_arg2) (ix3 e k q) := by
  obtain ⟨-, -, -, -, -, -, -, -, -, e0, e1, e2, -⟩ := idx_facts t
  show V m c main_arg2 (((cfg0.win 4).blk t).view.emb (ix3 (0 : Fin 1) k q)) = _
  have h : ((cfg0.win 4).blk t).view.emb (ix3 (0 : Fin 1) k q) = (ix3 e k q : S8x1024x1024.Idx) := by
    funext a; apply Fin.ext
    match a with
    | ⟨0, _⟩ => show win0_4.index t (0 : Fin 3) * 1 + 1 * 0 = e.val; omega
    | ⟨1, _⟩ => show win0_4.index t (1 : Fin 3) * 1024 + 1 * k.val = k.val; omega
    | ⟨2, _⟩ => show win0_4.index t (2 : Fin 3) * 1024 + 1 * q.val = q.val; omega
  rw [h, V_main_arg2]

/-! ## The output window's blocks in the output array -/

/-- An entry of the output array is in point `t`'s block iff each coordinate is in the block's range on its axis. -/
theorem mem_oblk (t : Fin cfg0.N) (i : S2048x1024.Idx) :
    i ∈ ((cfg0.win 5).blk t).view.set ↔
      ∀ a : Fin 2, win0_5.index t a * S512x1024.size a ≤ (i a).val ∧ (i a).val < win0_5.index t a * S512x1024.size a + S512x1024.size a := by
  show i ∈ ((View.whole main_v1).slice (win0_5.rect t)).set ↔ _
  rw [View.set_slice_whole, Rect.mem_set_unit]
  exact Iff.rfl

/-- Every entry of the output array lies in the block written back after the last expert of its token block. -/
theorem ocover (i : S2048x1024.Idx) :
    ∃ t : Fin cfg0.N, (cfg0.win 5).flush t = true ∧ i ∈ ((cfg0.win 5).blk t).view.set := by
  have hi0 : (i 0).val < 2048 := (i 0).isLt
  have hi1 : (i 1).val < 1024 := (i 1).isLt
  have hlt : 8 * ((i 0).val / 512) + 7 < cfg0.N := by
    have hN : grid0.N = 32 := N_0
    show 8 * ((i 0).val / 512) + 7 < grid0.N
    omega
  refine ⟨⟨8 * ((i 0).val / 512) + 7, hlt⟩, (flush0_5 _).mpr (by show (8 * ((i 0).val / 512) + 7) % 8 = 7; omega), ?_⟩
  rw [mem_oblk]
  obtain ⟨-, -, -, -, -, -, -, -, -, -, -, -, e0, e1, -⟩ := idx_facts ⟨8 * ((i 0).val / 512) + 7, hlt⟩
  have e0' : win0_5.index ⟨8 * ((i 0).val / 512) + 7, hlt⟩ (0 : Fin 2) = (i 0).val / 512 := by
    rw [e0]; show (8 * ((i 0).val / 512) + 7) / 8 = _; omega
  intro a
  match a with
  | ⟨0, _⟩ =>
    show win0_5.index _ (0 : Fin 2) * 512 ≤ (i 0).val ∧ (i 0).val < win0_5.index _ (0 : Fin 2) * 512 + 512
    rw [e0']; omega
  | ⟨1, _⟩ =>
    show win0_5.index _ (1 : Fin 2) * 1024 ≤ (i 1).val ∧ (i 1).val < win0_5.index _ (1 : Fin 2) * 1024 + 1024
    rw [e1]; omega

/-- Entry `(p, q)` of point `t`'s output block is entry `(512 · (t / 8) + p, q)` of the output array. -/
theorem oblk_emb (t : Fin cfg0.N) (p : Fin 512) (q : Fin 1024) (r : Fin 2048) (hr : r.val = 512 * (t.val / 8) + p.val) :
    ((cfg0.win 5).blk t).view.emb (ix2 p q) = (ix2 r q : S2048x1024.Idx) := by
  obtain ⟨-, -, -, -, -, -, -, -, -, -, -, -, e0, e1, -⟩ := idx_facts t
  funext a; apply Fin.ext
  match a with
  | ⟨0, _⟩ => show win0_5.index t (0 : Fin 2) * 512 + 1 * p.val = r.val; omega
  | ⟨1, _⟩ => show win0_5.index t (1 : Fin 2) * 1024 + 1 * q.val = q.val; omega

end Cert.KernelIdeal.Blocks

end
-- ==== Proof.Spec.lean ====
/-
  The layer as a function of the argument arrays, one output entry at a time.

  A token (a row `r` of the hidden states) is sent through every expert `e`: the row is projected by the expert's
  gate-and-up matrix to 2048 numbers, the first 1024 of which (the gate) are passed through `g ↦ g · σ(g)` and
  multiplied with the last 1024 (the up half), the 1024 products are projected by the expert's down matrix, and the
  result is scaled by the token's routing weight for that expert: the sum, over the token's two routing slots, of the
  slot's weight where the slot names expert `e` and of zero elsewhere. The layer's output row is the sum of the eight
  scaled results, added in the order of the experts.

  Every entry of the output therefore depends on one row of the hidden states, one expert's two matrices at a time, and
  that token's two slots: `contrib` is stated over exactly those, so that it can be read both off a block of rows
  and off the whole arrays.
-/
import Idealize.ShloMosaic.PureOps.Ideal
import Idealize.ShloMosaic.Lib.ValueIdx

noncomputable section

open scoped BigOperators

namespace Cert.MoeSpec

open Idealize.ShloMosaic Idealize.ShloMosaic.ValueIdx

/-- Column `k` of the gate half of a projected row. -/
def lo (k : Fin 1024) : Fin 2048 := ⟨k.val, by omega⟩
/-- Column `k` of the up half of a projected row. -/
def hi (k : Fin 1024) : Fin 2048 := ⟨1024 + k.val, by omega⟩

/-- A token's row projected onto column `n` of an expert's gate-and-up matrix. -/
def proj (xrow : Fin 1024 → EReal) (w1 : Fin 1024 → Fin 2048 → EReal) (n : Fin 2048) : EReal :=
  ∑ j : Fin 1024, xrow j * w1 j n

/-- The gated activation at hidden column `k`: `(g · σ(g)) · u` with `g` the gate entry and `u` the up entry. -/
def act (xrow : Fin 1024 → EReal) (w1 : Fin 1024 → Fin 2048 → EReal) (k : Fin 1024) : EReal :=
  (proj xrow w1 (lo k) * Ideal.logistic (proj xrow w1 (lo k))) * proj xrow w1 (hi k)

/-- The activations projected onto column `q` of the expert's down matrix. -/
def expertOut (xrow : Fin 1024 → EReal) (w1 : Fin 1024 → Fin 2048 → EReal) (w2 : Fin 1024 → Fin 1024 → EReal)
    (q : Fin 1024) : EReal :=
  ∑ k : Fin 1024, act xrow w1 k * w2 k q

/-- The token's routing weight for the expert whose number is the word `e`: over its two slots, the slot's weight
    where the slot's expert word is `e`, zero elsewhere. -/
def weight (idrow : Fin 2 → BitVec 32) (ewrow : Fin 2 → EReal) (e : BitVec 32) : EReal :=
  ∑ s : Fin 2, Scalar.select (IntOp.cmpi .eq (idrow s) e) (ewrow s) (0 : EReal)

/-- One expert's scaled result for one token at output column `q`. -/
def contrib (xrow : Fin 1024 → EReal) (w1 : Fin 1024 → Fin 2048 → EReal) (w2 : Fin 1024 → Fin 1024 → EReal)
    (idrow : Fin 2 → BitVec 32) (ewrow : Fin 2 → EReal) (e : BitVec 32) (q : Fin 1024) : EReal :=
  expertOut xrow w1 w2 q * weight idrow ewrow e

section Arrays

variable (a0 : (⟨3, ![1, 2048, 1024]⟩ : Shape).Idx → EReal) (a1 : (⟨3, ![8, 1024, 2048]⟩ : Shape).Idx → EReal)
  (a2 : (⟨3, ![8, 1024, 1024]⟩ : Shape).Idx → EReal) (a3 : (⟨2, ![2048, 2]⟩ : Shape).Idx → BitVec 32)
  (a4 : (⟨2, ![2048, 2]⟩ : Shape).Idx → EReal)

/-- Expert `e`'s scaled result for token `r` at column `q`, read off the five argument arrays: hidden states,
    gate-and-up matrices, down matrices, slot experts, slot weights. -/
def term (e : Fin 8) (r : Fin 2048) (q : Fin 1024) : EReal :=
  contrib (fun j => a0 (ix3 (0 : Fin 1) r j)) (fun j n => a1 (ix3 e j n)) (fun k c => a2 (ix3 e k c))
    (fun s => a3 (ix2 r s)) (fun s => a4 (ix2 r s)) (BitVec.ofNat 32 e.val) q

/-- The experts' results added in order: after expert `n`, `term 0 + term 1 + … + term n`, associated to the left. -/
def partialSum : (n : ℕ) → n < 8 → Fin 2048 → Fin 1024 → EReal
  | 0, h, r, q => term a0 a1 a2 a3 a4 ⟨0, h⟩ r q
  | n + 1, h, r, q => partialSum n (Nat.lt_of_succ_lt h) r q + term a0 a1 a2 a3 a4 ⟨n + 1, h⟩ r q

/-- The layer's output, shaped like the hidden states. -/
def out : (⟨3, ![1, 2048, 1024]⟩ : Shape).Idx → EReal :=
  fun i => partialSum a0 a1 a2 a3 a4 7 (by decide) (i 1) (i 2)

end Arrays

end Cert.MoeSpec

end
-- ==== Proof.PayValue.lean ====
/-
  The value one grid point stores, read one entry at a time.

  At a grid point the body holds a block of 512 token rows x, one expert's gate-and-up matrix w1 and down matrix w2, and
  the rows' two routing slots (the slot's expert word and the slot's weight). It computes, for row p and output column q,

      ( ∑ k, act(p, k) · w2(k, q) ) · ( ∑ s, [slot s of row p names the expert] · weight(p, s) )

  with act(p, k) = (g · σ(g)) · u, g = ∑ j, x(p, j) · w1(j, k) and u = ∑ j, x(p, j) · w1(j, 1024 + k). Each step that is
  not entry by entry (the two products, the two column cuts, the dropped and added unit axes, the sum over the slots, the
  repetition along the columns) is read at an entry by one lemma; the stages are then named and read in turn, and the
  stored value at (p, q) comes out as the specification's scaled result of row p at column q, sums and factors in the
  specification's order. The accumulating variant adds that value to the entry already there.
-/
import proofs.«140114_g77670188581355_cont_9to1_m_704_4_alg».proof.Proof.Gen.KernelIdeal.Skeleton
import proofs.«140114_g77670188581355_cont_9to1_m_704_4_alg».proof.Proof.Spec
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

open scoped BigOperators

namespace Cert.KernelIdeal.PayValue

open Cert.KernelIdeal Cert.KernelIdeal.Gen Idealize.ShloMosaic Idealize.ShloMosaic.ValueIdx

/-! ## The first product: a row of the tokens against a column of the gate-and-up matrix -/

/-- Row coordinate of the left operand's entry: the output entry's row. -/
theorem lhs_dot_S512x1024_S1024x2048_S512x2048_1_0_0_1_n_n_0 (i : S512x2048.Idx)
    (q : dot_S512x1024_S1024x2048_S512x2048_1_0_0_1_n_n.contr.Idx) :
    (dot_S512x1024_S1024x2048_S512x2048_1_0_0_1_n_n.lhsIdx i q 0).val = (i 0).val := by
  unfold DotDims.lhsIdx
  rw [dif_neg (show ¬(0 : Fin S512x1024.rank) ∈ dot_S512x1024_S1024x2048_S512x2048_1_0_0_1_n_n.lhsBatch by decide),
    dif_pos (show (0 : Fin S512x1024.rank) ∈ dot_S512x1024_S1024x2048_S512x2048_1_0_0_1_n_n.lhsNonContracting by decide)]
  rfl

/-- Column coordinate of the left operand's entry: the summation index. -/
theorem lhs_dot_S512x1024_S1024x2048_S512x2048_1_0_0_1_n_n_1 (i : S512x2048.Idx)
    (q : dot_S512x1024_S1024x2048_S512x2048_1_0_0_1_n_n.contr.Idx) :
    (dot_S512x1024_S1024x2048_S512x2048_1_0_0_1_n_n.lhsIdx i q 1).val = (q ⟨0, by decide⟩).val :=
  dot_S512x1024_S1024x2048_S512x2048_1_0_0_1_n_n.lhsIdx_val_of_single rfl i q

/-- Row coordinate of the right operand's entry: the summation index. -/
theorem rhs_dot_S512x1024_S1024x2048_S512x2048_1_0_0_1_n_n_0 (i : S512x2048.Idx)
    (q : dot_S512x1024_S1024x2048_S512x2048_1_0_0_1_n_n.contr.Idx) :
    (dot_S512x1024_S1024x2048_S512x2048_1_0_0_1_n_n.rhsIdx i q 0).val = (q ⟨0, by decide⟩).val :=
  dot_S512x1024_S1024x2048_S512x2048_1_0_0_1_n_n.rhsIdx_val_of_single rfl i q

/-- Column coordinate of the right operand's entry: the output entry's column. -/
theorem rhs_dot_S512x1024_S1024x2048_S512x2048_1_0_0_1_n_n_1 (i : S512x2048.Idx)
    (q : dot_S512x1024_S1024x2048_S512x2048_1_0_0_1_n_n.contr.Idx) :
    (dot_S512x1024_S1024x2048_S512x2048_1_0_0_1_n_n.rhsIdx i q 1).val = (i 1).val := by
  unfold DotDims.rhsIdx
  rw [dif_neg (show ¬(1 : Fin S1024x2048.rank) ∈ dot_S512x1024_S1024x2048_S512x2048_1_0_0_1_n_n.rhsBatch by decide),
    dif_pos (show (1 : Fin S1024x2048.rank) ∈ dot_S512x1024_S1024x2048_S512x2048_1_0_0_1_n_n.rhsNonContracting by decide)]
  rfl

/-- Entry (p, n) of the product into the zero block: the sum over j of x(p, j) · w(j, n). -/
theorem matmul1_apply (x : FVec Ideal S512x1024 .f32) (w : FVec Ideal S1024x2048 .f32) (p : Fin 512) (n : Fin 2048) :
    matmul (F := Ideal) dot_S512x1024_S1024x2048_S512x2048_1_0_0_1_n_n none x w
        (constant (F := Ideal) S512x2048 .f32 0x00000000#32) (ix2 p n)
      = ∑ j : Fin 1024, x (ix2 p j) * w (ix2 j n) := by
  refine (Ideal.matmul_constant_zero_apply dot_S512x1024_S1024x2048_S512x2048_1_0_0_1_n_n none x w (ix2 p n)).trans ?_
  rw [← Equiv.sum_comp (contrEquiv1 dot_S512x1024_S1024x2048_S512x2048_1_0_0_1_n_n 1024 rfl rfl).symm]
  refine Finset.sum_congr rfl fun k _ => ?_
  have hk := contrEquiv1_symm_val dot_S512x1024_S1024x2048_S512x2048_1_0_0_1_n_n 1024 rfl rfl k
  have el : dot_S512x1024_S1024x2048_S512x2048_1_0_0_1_n_n.lhsIdx (ix2 p n)
      ((contrEquiv1 dot_S512x1024_S1024x2048_S512x2048_1_0_0_1_n_n 1024 rfl rfl).symm k) = ix2 p k :=
    funext fun a => Fin.ext (by
      match a with
      | ⟨0, _⟩ => exact lhs_dot_S512x1024_S1024x2048_S512x2048_1_0_0_1_n_n_0 _ _
      | ⟨1, _⟩ => exact (lhs_dot_S512x1024_S1024x2048_S512x2048_1_0_0_1_n_n_1 _ _).trans hk)
  have er : dot_S512x1024_S1024x2048_S512x2048_1_0_0_1_n_n.rhsIdx (ix2 p n)
      ((contrEquiv1 dot_S512x1024_S1024x2048_S512x2048_1_0_0_1_n_n 1024 rfl rfl).symm k) = ix2 k n :=
    funext fun a => Fin.ext (by
      match a with
      | ⟨0, _⟩ => exact (rhs_dot_S512x1024_S1024x2048_S512x2048_1_0_0_1_n_n_0 _ _).trans hk
      | ⟨1, _⟩ => exact rhs_dot_S512x1024_S1024x2048_S512x2048_1_0_0_1_n_n_1 _ _)
  rw [el, er]

/-! ## The second product: a row of the activations against a column of the down matrix -/

/-- Row coordinate of the left operand's entry: the output entry's row. -/
theorem lhs_dot_S512x1024_S1024x1024_S512x1024_1_0_0_1_n_n_0 (i : S512x1024.Idx)
    (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide),
    dif_pos (show (0 : Fin S512x1024.rank) ∈ dot_S512x1024_S1024x1024_S512x1024_1_0_0_1_n_n.lhsNonContracting by decide)]
  rfl

/-- Column coordinate of the left operand's entry: the summation index. -/
theorem lhs_dot_S512x1024_S1024x1024_S512x1024_1_0_0_1_n_n_1 (i : S512x1024.Idx)
    (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q

/-- Row coordinate of the right operand's entry: the summation index. -/
theorem rhs_dot_S512x1024_S1024x1024_S512x1024_1_0_0_1_n_n_0 (i : S512x1024.Idx)
    (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q

/-- Column coordinate of the right operand's entry: the output entry's column. -/
theorem rhs_dot_S512x1024_S1024x1024_S512x1024_1_0_0_1_n_n_1 (i : S512x1024.Idx)
    (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide),
    dif_pos (show (1 : Fin S1024x1024.rank) ∈ dot_S512x1024_S1024x1024_S512x1024_1_0_0_1_n_n.rhsNonContracting by decide)]
  rfl

/-- Entry (p, c) of the product into the zero block: the sum over k of a(p, k) · w(k, c). -/
theorem matmul2_apply (a : FVec Ideal S512x1024 .f32) (w : FVec Ideal S1024x1024 .f32) (p : Fin 512) (c : Fin 1024) :
    matmul (F := Ideal) dot_S512x1024_S1024x1024_S512x1024_1_0_0_1_n_n none a w
        (constant (F := Ideal) S512x1024 .f32 0x00000000#32) (ix2 p c)
      = ∑ k : Fin 1024, a (ix2 p k) * w (ix2 k c) := by
  refine (Ideal.matmul_constant_zero_apply dot_S512x1024_S1024x1024_S512x1024_1_0_0_1_n_n none a w (ix2 p c)).trans ?_
  rw [← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p c)
      ((contrEquiv1 dot_S512x1024_S1024x1024_S512x1024_1_0_0_1_n_n 1024 rfl rfl).symm k) = ix2 p k :=
    funext fun b => Fin.ext (by
      match b with
      | ⟨0, _⟩ => exact lhs_dot_S512x1024_S1024x1024_S512x1024_1_0_0_1_n_n_0 _ _
      | ⟨1, _⟩ => exact (lhs_dot_S512x1024_S1024x1024_S512x1024_1_0_0_1_n_n_1 _ _).trans hk)
  have er : dot_S512x1024_S1024x1024_S512x1024_1_0_0_1_n_n.rhsIdx (ix2 p c)
      ((contrEquiv1 dot_S512x1024_S1024x1024_S512x1024_1_0_0_1_n_n 1024 rfl rfl).symm k) = ix2 k c :=
    funext fun b => Fin.ext (by
      match b with
      | ⟨0, _⟩ => exact (rhs_dot_S512x1024_S1024x1024_S512x1024_1_0_0_1_n_n_0 _ _).trans hk
      | ⟨1, _⟩ => exact rhs_dot_S512x1024_S1024x1024_S512x1024_1_0_0_1_n_n_1 _ _)
  rw [el, er]

/-! ## The layout operations read at an entry -/

section Layout
variable {α : Type}

/-- The gate half of a projected block: entry (p, k) is entry (p, k) of the block. -/
theorem gate_slice_apply (y : S512x2048.Idx → α) (h : S512x2048.Slices ![0, 0] S512x1024) (p : Fin 512) (k : Fin 1024) :
    extractStridedSlice S512x1024 ![0, 0] y h (ix2 p k) = y (ix2 p (Cert.MoeSpec.lo k)) :=
  slice2_axis1_apply 0 y h p k (Cert.MoeSpec.lo k) (Nat.zero_add _).symm

/-- The up half of a projected block: entry (p, k) is entry (p, 1024 + k) of the block. -/
theorem up_slice_apply (y : S512x2048.Idx → α) (h : S512x2048.Slices ![0, 1024] S512x1024) (p : Fin 512) (k : Fin 1024) :
    extractStridedSlice S512x1024 ![0, 1024] y h (ix2 p k) = y (ix2 p (Cert.MoeSpec.hi k)) :=
  slice2_axis1_apply 1024 y h p k (Cert.MoeSpec.hi k) rfl

/-- A vector of a entries viewed as a column: entry (p, u) is entry p, whatever the unit coordinate u. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column of a entries repeated along b columns: entry (p, q) is the column's entry p. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Layout

/-- The sum along the two slots of a row: entry p is x(p, 0) + x(p, 1), written as the sum over the slot s of x(p, s). -/
theorem slot_sum_apply (x : FVec Ideal S512x2 .f32) (h : S512x2.Reduces [1] S512) (hφ : FKind.Formats .f32)
    (hacc : (0x00000000#32 : BitVec 32) = FKind.add.neutral .f32 hφ) (p : Fin 512) :
    multiReduction (F := Ideal) .add [1] S512 x 0x00000000#32 h hφ hacc (ix1 p) = ∑ s : Fin 2, x (ix2 p s) := by
  refine (Ideal.multiReduction_add_single x _ h hφ hacc (ix1 p)).trans ?_
  refine Finset.sum_congr rfl fun s _ => congrArg x (funext fun c => Fin.ext ?_)
  match c with
  | ⟨0, _⟩ => rfl
  | ⟨1, _⟩ => rfl

/-! ## The stages of the stored value, and each read at an entry -/

/-- The projected block: the token block times the expert's gate-and-up matrix. -/
def projBlock (v0 : Vec Ideal S512x1024 .f32) (v2 : Vec Ideal S1x1024x2048 .f32) : FVec Ideal S512x2048 .f32 :=
  matmul (F := Ideal) (φ₁ := .f32) (φ₂ := .f32) dot_S512x1024_S1024x2048_S512x2048_1_0_0_1_n_n none
    (shapeCast S512x1024 v0 shapeCasts_S512x1024_S512x1024) (shapeCast S1024x2048 v2 shapeCasts_S1x1024x2048_S1024x2048)
    (constant (F := Ideal) S512x2048 .f32 0x00000000#32)

/-- Entry (p, n) of the projected block: the sum over j of token p's entry j times entry (j, n) of the matrix. -/
theorem projBlock_apply (v0 : Vec Ideal S512x1024 .f32) (v2 : Vec Ideal S1x1024x2048 .f32) (p : Fin 512) (n : Fin 2048) :
    projBlock v0 v2 (ix2 p n)
      = Cert.MoeSpec.proj (fun j => v0 (ix2 p j)) (fun j n => v2 (ix3 (0 : Fin 1) j n)) n := by
  unfold projBlock Cert.MoeSpec.proj
  refine (matmul1_apply _ _ p n).trans (Finset.sum_congr rfl fun j _ => ?_)
  exact congrArg₂ (· * ·) (congrFun (shapeCast_self v0 _) (ix2 p j)) (shapeCast_1ab_ab_apply v2 _ j n)

/-- The activation block: gate entry times its logistic, times the up entry. -/
def actBlock (v0 : Vec Ideal S512x1024 .f32) (v2 : Vec Ideal S1x1024x2048 .f32) : FVec Ideal S512x1024 .f32 :=
  mulf
    (mulf (extractStridedSlice S512x1024 ![0, 0] (projBlock v0 v2) slices_S512x2048_o0_0_S512x1024)
      (logistic (extractStridedSlice S512x1024 ![0, 0] (projBlock v0 v2) slices_S512x2048_o0_0_S512x1024)))
    (extractStridedSlice S512x1024 ![0, 1024] (projBlock v0 v2) slices_S512x2048_o0_1024_S512x1024)

/-- Entry (p, k) of the activation block: (g · σ(g)) · u with g the projection at column k and u the one at column 1024 + k. -/
theorem actBlock_apply (v0 : Vec Ideal S512x1024 .f32) (v2 : Vec Ideal S1x1024x2048 .f32) (p : Fin 512) (k : Fin 1024) :
    actBlock v0 v2 (ix2 p k)
      = Cert.MoeSpec.act (fun j => v0 (ix2 p j)) (fun j n => v2 (ix3 (0 : Fin 1) j n)) k := by
  have hg := (gate_slice_apply (projBlock v0 v2) slices_S512x2048_o0_0_S512x1024 p k).trans
    (projBlock_apply v0 v2 p (Cert.MoeSpec.lo k))
  have hu := (up_slice_apply (projBlock v0 v2) slices_S512x2048_o0_1024_S512x1024 p k).trans
    (projBlock_apply v0 v2 p (Cert.MoeSpec.hi k))
  unfold actBlock Cert.MoeSpec.act
  exact congrArg₂ (· * ·) (congrArg₂ (· * ·) hg (congrArg Ideal.logistic hg)) hu

/-- The expert's output block: the activation block times the expert's down matrix. -/
def outBlock (v0 : Vec Ideal S512x1024 .f32) (v2 : Vec Ideal S1x1024x2048 .f32) (v10 : Vec Ideal S1x1024x1024 .f32) :
    FVec Ideal S512x1024 .f32 :=
  matmul (F := Ideal) (φ₁ := .f32) (φ₂ := .f32) dot_S512x1024_S1024x1024_S512x1024_1_0_0_1_n_n none (actBlock v0 v2)
    (shapeCast S1024x1024 v10 shapeCasts_S1x1024x1024_S1024x1024) (constant (F := Ideal) S512x1024 .f32 0x00000000#32)

/-- Entry (p, c) of the output block: the sum over k of the activation at k times entry (k, c) of the down matrix. -/
theorem outBlock_apply (v0 : Vec Ideal S512x1024 .f32) (v2 : Vec Ideal S1x1024x2048 .f32) (v10 : Vec Ideal S1x1024x1024 .f32)
    (p : Fin 512) (c : Fin 1024) :
    outBlock v0 v2 v10 (ix2 p c)
      = Cert.MoeSpec.expertOut (fun j => v0 (ix2 p j)) (fun j n => v2 (ix3 (0 : Fin 1) j n))
          (fun k c => v10 (ix3 (0 : Fin 1) k c)) c := by
  unfold outBlock Cert.MoeSpec.expertOut
  refine (matmul2_apply _ _ p c).trans (Finset.sum_congr rfl fun k _ => ?_)
  exact congrArg₂ (· * ·) (actBlock_apply v0 v2 p k) (shapeCast_1ab_ab_apply v10 _ k c)

/-- The routing-weight block for the expert whose number is the word e: per row, the sum over the two slots of the
    slot's weight where the slot names e and of zero elsewhere, repeated along the columns. -/
def weightBlock (e : BitVec 32) (v13 : Vec Ideal S512x2 .i32) (v16 : Vec Ideal S512x2 .f32) : FVec Ideal S512x1024 .f32 :=
  broadcastTo S512x1024
    (shapeCast S512x1
      (multiReduction (F := Ideal) .add [1] S512
        (select (cmpi .eq v13 (broadcast S512x2 e)) v16 (broadcast S512x2 (Scalar.ofBits (F := Ideal) .f32 0x00000000#32)))
        0x00000000#32 reduces_S512x2_S512 (.inl rfl) rfl)
      shapeCasts_S512_S512x1)
    broadcasts_S512x1_S512x1024

/-- Entry (p, q) of the routing-weight block: row p's weight for expert e, whatever the column q. -/
theorem weightBlock_apply (e : BitVec 32) (v13 : Vec Ideal S512x2 .i32) (v16 : Vec Ideal S512x2 .f32) (p : Fin 512) (q : Fin 1024) :
    weightBlock e v13 v16 (ix2 p q) = Cert.MoeSpec.weight (fun s => v13 (ix2 p s)) (fun s => v16 (ix2 p s)) e := by
  unfold weightBlock Cert.MoeSpec.weight
  refine (broadcastTo_a1_ab_apply _ _ p q).trans ?_
  refine (shapeCast_a_a1_apply _ _ p (0 : Fin 1)).trans ?_
  refine (slot_sum_apply _ _ _ _ p).trans (Finset.sum_congr rfl fun s _ => ?_)
  show Scalar.select (IntOp.cmpi .eq (v13 (ix2 p s)) e) (v16 (ix2 p s)) (Ideal.ofBits .f32 0x00000000#32) = _
  rw [Ideal.ofBits_zero_f32]

/-! ## The stored values -/

/-- The stored value is the output block times the routing-weight block, entry by entry. -/
theorem pay1_eq (i : grid0.Coords) (v0 : Vec Ideal S512x1024 .f32) (v2 : Vec Ideal S1x1024x2048 .f32)
    (v10 : Vec Ideal S1x1024x1024 .f32) (v13 : Vec Ideal S512x2 .i32) (v16 : Vec Ideal S512x2 .f32) :
    k0_pay1 (F := Ideal) i v0 v2 v10 v13 v16
      = mulf (outBlock v0 v2 v10) (weightBlock (BitVec.ofNat 32 (i 1).val) v13 v16) := rfl

theorem pay1_apply (i : grid0.Coords) (v0 : Vec Ideal S512x1024 .f32) (v2 : Vec Ideal S1x1024x2048 .f32)
    (v10 : Vec Ideal S1x1024x1024 .f32) (v13 : Vec Ideal S512x2 .i32) (v16 : Vec Ideal S512x2 .f32) (p : Fin 512) (q : Fin 1024) :
    k0_pay1 (F := Ideal) i v0 v2 v10 v13 v16 (ix2 p q)
      = Cert.MoeSpec.contrib (fun j => v0 (ix2 p j)) (fun j n => v2 (ix3 (0 : Fin 1) j n)) (fun k c => v10 (ix3 (0 : Fin 1) k c))
          (fun s => v13 (ix2 p s)) (fun s => v16 (ix2 p s)) (BitVec.ofNat 32 (i 1).val) q := by
  rw [pay1_eq]
  unfold Cert.MoeSpec.contrib
  exact congrArg₂ (· * ·) (outBlock_apply v0 v2 v10 p q) (weightBlock_apply _ v13 v16 p q)

theorem pay2_apply (i : grid0.Coords) (v0 : Vec Ideal S512x1024 .f32) (v2 : Vec Ideal S1x1024x2048 .f32)
    (v10 : Vec Ideal S1x1024x1024 .f32) (v13 : Vec Ideal S512x2 .i32) (v16 : Vec Ideal S512x2 .f32)
    (v29 : Vec Ideal S512x1024 .f32) (p : Fin 512) (q : Fin 1024) :
    k0_pay2 (F := Ideal) i v0 v2 v10 v13 v16 v29 (ix2 p q)
      = v29 (ix2 p q) + k0_pay1 (F := Ideal) i v0 v2 v10 v13 v16 (ix2 p q) := by
  unfold k0_pay2
  exact congrArg (· + k0_pay1 (F := Ideal) i v0 v2 v10 v13 v16 (ix2 p q)) (congrFun (shapeCast_self v29 _) (ix2 p q))

end Cert.KernelIdeal.PayValue

end
-- ==== Proof.KernelValue.lean ====
/-
  What the kernel's result array holds after the run.

  For a fixed token block the output window's staging buffer is a running sum over the experts: after expert `e` it holds,
  at row `p` and column `q`, the sum of the scaled results of experts `0 … e` for token `512 · b + p`, added in order
  (induction on the point, each step the body's stored value read at an entry). The block is written back after expert
  7, when the running sum is the layer's output for those 512 tokens; the four written-back blocks tile the array; and
  the reshape after the region only adds a leading axis of length one.
-/
import proofs.«140114_g77670188581355_cont_9to1_m_704_4_alg».proof.Proof.Body
import proofs.«140114_g77670188581355_cont_9to1_m_704_4_alg».proof.Proof.Blocks
import proofs.«140114_g77670188581355_cont_9to1_m_704_4_alg».proof.Proof.PayValue
import proofs.«140114_g77670188581355_cont_9to1_m_704_4_alg».proof.Proof.Spec
import Idealize.ShloMosaic.Lib.ValueIdx
import Idealize.ShloMosaic.Lib.ValueLayout
import Idealize.ShloMosaic.Lib.Pipeline.Value
import Idealize.ShloMosaic.Lib.Pipeline.FrameSuffix
import Idealize.ShloMosaic.Lib.StableHlo.Run

set_option maxRecDepth 16384

noncomputable section

namespace Cert.KernelIdeal.KernelValue

open Cert.KernelIdeal Cert.KernelIdeal.Gen Cert.KernelIdeal.Body Cert.KernelIdeal.Blocks
open Idealize.ShloMosaic Idealize.ShloMosaic.TcCoe Idealize.ShloMosaic.ValueIdx Idealize.ShloMosaic.StableHlo
open Idealize.SL.Sem
open Idealize.ShloMosaic.Pipeline (Dat)

variable (m : (ℓ : Loc nD τ sig) → Buf (Elt Ideal) ℓ) (ρ : Dev nD → PrngReg)

/-! ## The specification at the launch contents -/

/-- The sum of the first `n + 1` experts' scaled results for token `r` at column `q`, read off the argument arrays as
    launched. -/
abbrev psum (c : Dev nD) (n : ℕ) (h : n < 8) (r : Fin 2048) (q : Fin 1024) : EReal :=
  Cert.MoeSpec.partialSum (m ((c : Thread nD τ).loc main_arg0)) (m ((c : Thread nD τ).loc main_arg1))
    (m ((c : Thread nD τ).loc main_arg2)) (m ((c : Thread nD τ).loc main_arg3)) (m ((c : Thread nD τ).loc main_arg4)) n h r q

/-- One expert's scaled result, likewise. -/
abbrev eterm (c : Dev nD) (e : Fin 8) (r : Fin 2048) (q : Fin 1024) : EReal :=
  Cert.MoeSpec.term (m ((c : Thread nD τ).loc main_arg0)) (m ((c : Thread nD τ).loc main_arg1))
    (m ((c : Thread nD τ).loc main_arg2)) (m ((c : Thread nD τ).loc main_arg3)) (m ((c : Thread nD τ).loc main_arg4)) e r q

theorem psum_congr (c : Dev nD) {n n' : ℕ} (h : n < 8) (h' : n' < 8) (e : n = n') (r : Fin 2048) (q : Fin 1024) :
    psum m c n h r q = psum m c n' h' r q := by subst e; rfl

theorem psum_zero (c : Dev nD) (h : 0 < 8) (r : Fin 2048) (q : Fin 1024) : psum m c 0 h r q = eterm m c ⟨0, h⟩ r q := rfl

theorem psum_succ (c : Dev nD) (n : ℕ) (h : n + 1 < 8) (r : Fin 2048) (q : Fin 1024) :
    psum m c (n + 1) h r q = psum m c n (Nat.lt_of_succ_lt h) r q + eterm m c ⟨n + 1, h⟩ r q := rfl

/-- The output array the region leaves: the layer's output with two axes. -/
def Gout (c : Dev nD) : S2048x1024.Idx → EReal := fun i => psum m c 7 (by decide) (i 0) (i 1)

/-! ## One expert's stored value at an entry -/

/-- At point `t` the body's stored value at row `p`, column `q` of the block is expert `t % 8`'s scaled result for
    token `512 · (t / 8) + p`. -/
theorem pay_at (c : Dev nD) (t : Fin cfg0.N) (p : Fin 512) (q : Fin 1024) (r : Fin 2048) (hr : r.val = 512 * (t.val / 8) + p.val)
    (e : Fin 8) (he : e.val = t.val % 8) :
    k0_pay1 (F := Ideal) (grid0.coords t) (xblk m c t) (w1blk m c t) (w2blk m c t) (idblk m c t) (ewblk m c t) (ix2 p q)
      = eterm m c e r q := by
  refine (Cert.KernelIdeal.PayValue.pay1_apply (grid0.coords t) (xblk m c t) (w1blk m c t) (w2blk m c t) (idblk m c t) (ewblk m c t) p q).trans ?_
  have hx : (fun j => xblk m c t (ix2 p j)) = fun j => m ((c : Thread nD τ).loc main_arg0) (ix3 (0 : Fin 1) r j) :=
    funext fun j => xblk_apply m c t p j r hr
  have hw1 : (fun j n => w1blk m c t (ix3 (0 : Fin 1) j n)) = fun j n => m ((c : Thread nD τ).loc main_arg1) (ix3 e j n) :=
    funext fun j => funext fun n => w1blk_apply m c t j n e he
  have hw2 : (fun k cc => w2blk m c t (ix3 (0 : Fin 1) k cc)) = fun k cc => m ((c : Thread nD τ).loc main_arg2) (ix3 e k cc) :=
    funext fun k => funext fun cc => w2blk_apply m c t k cc e he
  have hid : (fun s => idblk m c t (ix2 p s)) = fun s => m ((c : Thread nD τ).loc main_arg3) (ix2 r s) :=
    funext fun s => idblk_apply m c t p s r hr
  have hew : (fun s => ewblk m c t (ix2 p s)) = fun s => m ((c : Thread nD τ).loc main_arg4) (ix2 r s) :=
    funext fun s => ewblk_apply m c t p s r hr
  have hword : BitVec.ofNat 32 ((grid0.coords t) 1).val = BitVec.ofNat 32 e.val := by
    obtain ⟨-, -, -, -, -, -, -, -, -, -, -, -, -, -, e1⟩ := idx_facts t
    rw [e1, he]
  rw [hx, hw1, hw2, hid, hew, hword]
  rfl

/-! ## The running sum at an entry -/

/-- After position `n` the output block's buffer holds, at `(p, q)`, the sum of experts `0 … n % 8` for token
    `512 · (n / 8) + p`. -/
theorem outAt_apply (c : Dev nD) : ∀ (n : ℕ) (hn : n < cfg0.N) (p : Fin 512) (q : Fin 1024) (r : Fin 2048),
    r.val = 512 * (n / 8) + p.val →
    outAt m c n hn (ix2 p q) = psum m c (n % 8) (Nat.mod_lt _ (by decide)) r q := by
  intro n
  induction n with
  | zero =>
    intro hn p q r hr
    refine (congrFun (outAt_first m c ⟨0, hn⟩ rfl) (ix2 p q)).trans ?_
    exact (pay_at m c ⟨0, hn⟩ p q r hr ⟨0, by decide⟩ rfl).trans (psum_zero m c _ r q).symm
  | succ n ih =>
    intro hn p q r hr
    by_cases h : (n + 1) % 8 = 0
    · refine (congrFun (outAt_first m c ⟨n + 1, hn⟩ h) (ix2 p q)).trans ?_
      refine (pay_at m c ⟨n + 1, hn⟩ p q r hr ⟨0, by decide⟩ h.symm).trans ?_
      exact (psum_zero m c _ r q).symm.trans (psum_congr m c _ _ h.symm r q)
    · refine (congrFun (outAt_later m c ⟨n + 1, hn⟩ h) (ix2 p q)).trans ?_
      refine (Cert.KernelIdeal.PayValue.pay2_apply (grid0.coords ⟨n + 1, hn⟩) (xblk m c ⟨n + 1, hn⟩) (w1blk m c ⟨n + 1, hn⟩)
        (w2blk m c ⟨n + 1, hn⟩) (idblk m c ⟨n + 1, hn⟩) (ewblk m c ⟨n + 1, hn⟩) _ p q).trans ?_
      have hdiv : n / 8 = (n + 1) / 8 := by omega
      have hmod : (n + 1) % 8 = n % 8 + 1 := by omega
      have hlt : n % 8 + 1 < 8 := by omega
      have hprev := ih (Nat.lt_of_succ_lt hn) p q r (by rw [hdiv]; exact hr)
      have hterm := pay_at m c ⟨n + 1, hn⟩ p q r hr ⟨n % 8 + 1, hlt⟩ hmod.symm
      rw [psum_congr m c (Nat.mod_lt _ (by decide)) hlt hmod r q, psum_succ m c (n % 8) hlt r q]
      exact congrArg₂ (· + ·) hprev hterm

/-! ## The result array -/

/-- What a point after a token block's last expert writes back is its block of the layer's output. -/
theorem flushed_eq (c : Dev nD) (t : Fin cfg0.N) (hf : (cfg0.win 5).flush t = true) :
    (dats m 0 c).flushed 5 t = ((cfg0.win 5).blk t).view.read (Elt Ideal) (Gout m c) := by
  have h7 : t.val % 8 = 7 := (flush0_5 t).mp hf
  show (cfg0.win 5).cut (grid0.coords t) ((dats m 0 c).after 5 t) = _
  rw [after5]
  funext y
  obtain ⟨p, q, rfl⟩ : ∃ (p : Fin 512) (q : Fin 1024), y = ix2 p q := ⟨y 0, y 1, eq_ix2 y⟩
  have hN : t.val < 32 := lt_of_lt_of_eq t.isLt (show cfg0.N = 32 from N_0)
  have hp := p.isLt
  show outAt m c t.val t.isLt (ix2 p q) = Gout m c (((cfg0.win 5).blk t).view.emb (ix2 p q))
  rw [oblk_emb t p q ⟨512 * (t.val / 8) + p.val, by omega⟩ rfl]
  refine (outAt_apply m c t.val t.isLt p q ⟨512 * (t.val / 8) + p.val, by omega⟩ rfl).trans ?_
  exact psum_congr m c _ _ h7 _ q

/-- The result array after the region: the layer's output with two axes. -/
theorem final (c : Dev nD) : (dats m 0 c).arrAt 5 cfg0.N = Gout m c :=
  (dats m 0 c).arrAt_eq_of_cover 5 (Gout m c) (fun t hf => flushed_eq m c t hf) ocover

/-- The result buffer after the reshape that follows the region: the same with a leading axis of length one. -/
theorem tail_eq (c : Dev nD) :
    Pipeline.afterTail₀ cfgs (dats m) 0 (V0 m) [hostOps1] c main_v2
      = shapeCast S1x2048x1024 (Gout m c) shapeCasts_S2048x1024_S1x2048x1024 := by
  unfold Pipeline.afterTail₀
  show StableHlo.after hostOps1 _ (Proc.devRef .tc main_v2) = _
  after_results
  rw [(Pipeline.withArrays_arr spec0 launch0.win.arr_inj c _ _ 5).trans (final m c)]
  rfl

/-- The layer's output with its leading axis restored is the specification's. -/
theorem out_eq (c : Dev nD) :
    shapeCast S1x2048x1024 (Gout m c) shapeCasts_S2048x1024_S1x2048x1024
      = Cert.MoeSpec.out (m ((c : Thread nD τ).loc main_arg0)) (m ((c : Thread nD τ).loc main_arg1))
          (m ((c : Thread nD τ).loc main_arg2)) (m ((c : Thread nD τ).loc main_arg3)) (m ((c : Thread nD τ).loc main_arg4)) := by
  funext i
  obtain ⟨u, r, q, rfl⟩ : ∃ (u : Fin 1) (r : Fin 2048) (q : Fin 1024), i = ix3 u r q := ⟨i 0, i 1, i 2, eq_ix3 i⟩
  exact shapeCast_ab_1ab_apply (Gout m c) shapeCasts_S2048x1024_S1x2048x1024 u r q

/-! ## The run, read -/

/-- Every weakly fair execution of the idealized kernel ends with the result buffer at the layer's output of the
    arguments as launched, and the arguments unchanged. -/
theorem run : θ_run defs (onTc (τ := τ) (main (F := Ideal))) ⟨m, fun _ => 0, ρ⟩ fun r => ∀ c : Dev nD,
      r.2.mem ((c.tc : Thread nD τ).loc main_v2)
        = Cert.MoeSpec.out (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v2 (Pipeline.mem_restRefs_of main_v2 (by decide) (by decide))).trans ((tail_eq m c).trans (out_eq m c)),
      ((h c).2 main_arg0 (Pipeline.mem_restRefs_of main_arg0 (by decide) (by decide))).trans (W_main_arg0 m (dats m) c),
      ((h c).1 3).trans (((dats m 0 c).arrAt_in 3 rfl _).trans ((A_eq m c 3).trans (V_main_arg1 m c))),
      ((h c).1 4).trans (((dats m 0 c).arrAt_in 4 rfl _).trans ((A_eq m c 4).trans (V_main_arg2 m c))),
      ((h c).1 0).trans (((dats m 0 c).arrAt_in 0 rfl _).trans ((A_eq m c 0).trans (V_main_arg3 m c))),
      ((h c).1 1).trans (((dats m 0 c).arrAt_in 1 rfl _).trans ((A_eq m c 1).trans (V_main_arg4 m c)))⟩)
    (run_main m ρ)

end Cert.KernelIdeal.KernelValue

end
-- ==== Proof.LibRowGather.lean ====
/-
  A row gather read at an index, and the range mask of a filled row take.

  Rows of a two-axis table `x : [N, C]` are gathered at a column `col : [E, 1]` of signed 32-bit start indices, one row per
  entry: result row `e` is the table's row at `col e`, the start index clamped into `[0, N - 1]`. When the entry already
  lies in `[0, N)` the clamp does nothing and the result at `(e, c)` is `x` at row `col e`, column `c`.
-/
import Idealize.ShloMosaic.Lib.ValueIdx
import Idealize.ShloMosaic.Lib.StableHlo.Predicate

noncomputable section

namespace Cert.LibRowGather

open Idealize.ShloMosaic Idealize.ShloMosaic.ValueIdx

/-- The row an in-range signed index word names. -/
def rowOf (N : Nat) (b : BitVec 32) (h : 0 ≤ b.toInt ∧ b.toInt < N) : Fin N := ⟨b.toInt.toNat, by omega⟩

/-- The dimension numbers of a row gather: one start index per result row, naming operand axis 0, which is collapsed;
    the result's axis 1 runs over the operand's whole axis 1. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ :=
  { offsetDims := [1], collapsedSliceDims := [0], operandBatchingDims := [], startIndicesBatchingDims := [],
    startIndexMap := [0], indexVectorDim := 1, sliceSizes := ![1, C], wf := wf }

/-- THE ROW GATHER READ AT `(e, c)`: with the start index of row `e` in `[0, N)`, the table at that row, column `c`. -/
theorem gather_rows_apply {α : Type} {N E C : Nat}
    (wf : GatherDims.WF ⟨2, ![N, C]⟩ ⟨2, ![E, 1]⟩ ⟨2, ![E, C]⟩ [1] [0] [] [0] [] 1 ![1, C])
    (x : (⟨2, ![N, C]⟩ : Shape).Idx → α) (col : IVec ⟨2, ![E, 1]⟩ 32) (e : Fin E) (c : Fin C)
    (h : 0 ≤ (col (ix2 e (0 : Fin 1))).toInt ∧ (col (ix2 e (0 : Fin 1))).toInt < N) :
    Host.gather (rowGatherDims N E C wf) x col (ix2 e c) = x (ix2 (rowOf N _ h) c) := by
  -- the operand index is, on each axis, the clamped start plus the batching coordinate plus the offset coordinate;
  -- there is no batching axis
  unfold Host.gather
  congr 1
  funext a
  refine Fin.ext ?_
  show (rowGatherDims N E C wf).start (ix2 e c) col a + (rowGatherDims N E C wf).batchCoord (ix2 e c) a
    + (rowGatherDims N E C wf).offCoord (ix2 e c) a = _
  rw [GatherDims.batchCoord_eq_zero _ _ _ List.not_mem_nil]
  have ha : a = (0 : Fin 2) ∨ a = (1 : Fin 2) := by
    match a with
    | ⟨0, _⟩ => exact Or.inl rfl
    | ⟨1, _⟩ => exact Or.inr rfl
  rcases ha with rfl | rfl
  · -- axis 0 (collapsed and start-indexed): no offset; the start is row `e`'s index word read signed and clamped into
    -- `[0, N - 1]`, which is the word's value since it already lies in `[0, N)`
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    show min (col (ix2 e (0 : Fin 1))).toInt.toNat (N - 1) = (col (ix2 e (0 : Fin 1))).toInt.toNat
    omega
  · -- axis 1 (kept, not start-indexed): the start is zero and the offset coordinate is the result's column `c`
    have h10 : (1 : Fin 2) ∉ ([0] : List (Fin 2)) := fun h => absurd (List.mem_singleton.mp h) (by decide)
    unfold GatherDims.start
    rw [dif_neg (show (1 : Fin 2) ∉ (rowGatherDims N E C wf).startIndexMap from h10)]
    unfold GatherDims.offCoord
    rw [dif_pos (show (1 : Fin 2) ∈ (rowGatherDims N E C wf).sKept from
      (GatherDims.mem_sKept _ _).mpr ⟨h10, List.not_mem_nil⟩)]
    simp only [Nat.add_zero, Nat.zero_add]
    rfl

/-- A vector laid out as an `[E, 1]` column reads, at row `e`, the vector at `e`. -/
theorem col_apply {α : Type} {E : Nat} (h : (⟨1, ![E]⟩ : Shape).BroadcastsInDim ⟨2, ![E, 1]⟩ ![0])
    (v : (⟨1, ![E]⟩ : Shape).Idx → α) (e : Fin E) :
    broadcastInDim ⟨2, ![E, 1]⟩ ![0] h v (ix2 e (0 : Fin 1)) = v (ix1 e) := by
  simp only [broadcastInDim]
  congr 1
  funext a
  obtain rfl : a = 0 := Subsingleton.elim _ _
  apply Fin.ext
  have hp := e.isLt
  split
  · next h1 => change E = 1 at h1; show (0 : Nat) = e.val; omega
  · rfl

/-- A vector laid out along the rows of an `[E, C]` rectangle (first as a column, then across) reads, at `(e, c)`, the
    vector at `e`. -/
theorem rows_apply {α : Type} {E C : Nat} (h₁ : (⟨1, ![E]⟩ : Shape).BroadcastsInDim ⟨2, ![E, 1]⟩ ![0])
    (h₂ : (⟨2, ![E, 1]⟩ : Shape).BroadcastsInDim ⟨2, ![E, C]⟩ ![0, 1]) (v : (⟨1, ![E]⟩ : Shape).Idx → α) (e : Fin E) (c : Fin C) :
    broadcastInDim ⟨2, ![E, C]⟩ ![0, 1] h₂ (broadcastInDim ⟨2, ![E, 1]⟩ ![0] h₁ v) (ix2 e c) = v (ix1 e) := by
  simp only [broadcastInDim]
  congr 1
  funext a
  obtain rfl : a = 0 := Subsingleton.elim _ _
  apply Fin.ext
  have hp := e.isLt
  split
  · next h1 => change E = 1 at h1; show (0 : Nat) = e.val; omega
  · split
    · next h2 => change E = 1 at h2; show (0 : Nat) = e.val; omega
    · rfl

/-- A one-bit vector laid out along the rows of an `[E, C]` rectangle reads, at `(e, c)`, the vector at `e`. -/
theorem rowbit_apply {α : Type} {E C : Nat} (h : (⟨1, ![E]⟩ : Shape).BroadcastsInDim ⟨2, ![E, C]⟩ ![0])
    (v : (⟨1, ![E]⟩ : Shape).Idx → α) (e : Fin E) (c : Fin C) :
    broadcastInDim ⟨2, ![E, C]⟩ ![0] h v (ix2 e c) = v (ix1 e) := by
  simp only [broadcastInDim]
  congr 1
  funext a
  obtain rfl : a = 0 := Subsingleton.elim _ _
  apply Fin.ext
  have hp := e.isLt
  split
  · next h1 => change E = 1 at h1; show (0 : Nat) = e.val; omega
  · rfl

/-- A signed-non-negative 32-bit word lies below 2³¹ and reads the same signed and unsigned. -/
private theorem toNat_of_toInt_nonneg (x : BitVec 32) (h : 0 ≤ x.toInt) : x.toNat < 2 ^ 31 ∧ x.toInt = x.toNat := by
  have hc := BitVec.toInt_eq_toNat_cond x
  have hx := x.isLt
  split at hc <;> omega

/-- A left fold by `and` from the bit one over bits that are all one is one. -/
private theorem foldl_andi_one {ι : Type} (f : ι → BitVec 1) :
    ∀ l : List ι, (∀ n ∈ l, f n = 1#1) → l.foldl (fun r n => IntOp.andi r (f n)) 1#1 = 1#1
  | [], _ => rfl
  | b :: l, h => by
    have h11 : IntOp.andi 1#1 1#1 = 1#1 := by decide
    rw [List.foldl_cons, h b List.mem_cons_self, h11]
    exact foldl_andi_one f l (fun n hn => h n (List.mem_cons_of_mem _ hn))

/-- An `and`-reduction from the bit one of an array whose every bit is one is one at every result index. -/
private theorem reduce_andi_of_all {s t u : Shape} {axes : List (Fin s.rank)} (x : s.Idx → BitVec 1)
    (init : u.Idx → BitVec 1) (h : s.ReducesTo axes t) (hu : 0 < u.numel) (j : t.Idx)
    (hinit : init (Shape.Idx.first hu) = 1#1) (hx : ∀ i, x i = 1#1) :
    Host.reduce IntOp.andi x init h hu j = 1#1 := by
  rw [Host.reduce_eq_foldl, hinit]
  exact foldl_andi_one x _ (fun i _ => hx i)

section Mask
variable {N E : Nat}
  (hbE : (⟨0, ![]⟩ : Shape).BroadcastsInDim ⟨1, ![E]⟩ ![])
  (hcol : (⟨1, ![E]⟩ : Shape).BroadcastsInDim ⟨2, ![E, 1]⟩ ![0])
  (hbE1 : (⟨0, ![]⟩ : Shape).BroadcastsInDim ⟨2, ![E, 1]⟩ ![])
  (hb11 : (⟨1, ![1]⟩ : Shape).BroadcastsInDim ⟨2, ![1, 1]⟩ ![1])
  (hb11E1 : (⟨2, ![1, 1]⟩ : Shape).BroadcastsInDim ⟨2, ![E, 1]⟩ ![0, 1])
  (hred : (⟨2, ![E, 1]⟩ : Shape).ReducesTo [1] ⟨1, ![E]⟩)
  (h0 : 0 < (⟨0, ![]⟩ : Shape).numel)
  (wN wM : BitVec 32) (a : IVec ⟨1, ![E]⟩ 32)

/-- The index column as printed: a negative entry of `a` wrapped by adding the word `wN`, then laid out as `[E, 1]`. -/
abbrev idxCol : IVec ⟨2, ![E, 1]⟩ 32 :=
  broadcastInDim ⟨2, ![E, 1]⟩ ![0] hcol
    (select (cmpi .slt a (broadcastInDim ⟨1, ![E]⟩ ![] hbE (constantI ⟨0, ![]⟩ 32 0#32)))
      (addi a (broadcastInDim ⟨1, ![E]⟩ ![] hbE (constantI ⟨0, ![]⟩ 32 wN))) a)

/-- The range mask as printed: per row, the column's entry is at least zero and at most the word `wM` (both signed),
    the two tests joined and reduced by `and` along the column's unit axis. -/
abbrev okVec : IVec ⟨1, ![E]⟩ 1 :=
  Host.reduce IntOp.andi
    (andi (cmpi .sge (idxCol hbE hcol wN a) (broadcastInDim ⟨2, ![E, 1]⟩ ![] hbE1 (constantI ⟨0, ![]⟩ 32 0#32)))
      (cmpi .sle (idxCol hbE hcol wN a)
        (broadcastInDim ⟨2, ![E, 1]⟩ ![0, 1] hb11E1 (broadcastInDim ⟨2, ![1, 1]⟩ ![1] hb11 (constantI ⟨1, ![1]⟩ 32 wM)))))
    (constantI ⟨0, ![]⟩ 1 1#1) hred h0

variable (ha : ∀ e : Fin E, 0 ≤ (a (ix1 e)).toInt ∧ (a (ix1 e)).toInt < N)

include ha in
/-- With every index non-negative the wrap does nothing: the column at row `e` is `a e`. -/
theorem idxCol_apply (e : Fin E) : idxCol hbE hcol wN a (ix2 e (0 : Fin 1)) = a (ix1 e) := by
  -- the signed test "entry < 0" is the bit zero, since the entry is non-negative
  have hslt : IntOp.cmpi .slt (a (ix1 e)) 0#32 = 0#1 := by
    have h := (ha e).1
    have h0 : (0#32 : BitVec 32).toInt = 0 := by decide
    have hf : (a (ix1 e)).slt 0#32 = false := by
      simp only [BitVec.slt, h0, decide_eq_false_iff_not, not_lt]; exact h
    show BitVec.ofBool ((a (ix1 e)).slt 0#32) = 0#1
    rw [hf]; rfl
  refine (col_apply hcol _ e).trans ?_
  show Scalar.select (IntOp.cmpi .slt (a (ix1 e)) 0#32) (IntOp.addi (a (ix1 e)) wN) (a (ix1 e)) = a (ix1 e)
  rw [hslt, select_zero]

include ha in
/-- With every index in `[0, N)`, `N` below 2³¹ and `wM` the word of `N - 1`, the mask is one at every row. -/
theorem okVec_apply (hN : N < 2 ^ 31) (hM : wM.toNat = N - 1) (e : Fin E) :
    okVec hbE hcol hbE1 hb11 hb11E1 hred h0 wN wM a (ix1 e) = 1#1 := by
  -- the reduction starts from the bit one, so it is enough that the joined test is one at every entry `(e', 0)`
  refine reduce_andi_of_all _ _ hred h0 _ rfl ?_
  intro i
  obtain ⟨e', z, rfl⟩ : ∃ (e' : Fin E) (z : Fin 1), i = ix2 e' z := ⟨i 0, i 1, eq_ix2 i⟩
  obtain rfl : z = 0 := Subsingleton.elim _ _
  have hcolv := idxCol_apply hbE hcol wN a ha e'
  obtain ⟨hlt, hint⟩ := toNat_of_toInt_nonneg (a (ix1 e')) (ha e').1
  have hup := (ha e').2
  -- both signed tests hold of the entry: it is at least zero and at most N - 1
  have hge : IntOp.cmpi .sge (a (ix1 e')) 0#32 = 1#1 :=
    (StableHlo.Predicate.sge_iff_toNat hlt (by decide)).2 (Nat.zero_le _)
  have hle : IntOp.cmpi .sle (a (ix1 e')) wM = 1#1 :=
    (StableHlo.Predicate.sle_iff_toNat hlt (by omega)).2 (by omega)
  show IntOp.andi (IntOp.cmpi .sge (idxCol hbE hcol wN a (ix2 e' (0 : Fin 1))) 0#32)
    (IntOp.cmpi .sle (idxCol hbE hcol wN a (ix2 e' (0 : Fin 1))) wM) = 1#1
  rw [hcolv, hge, hle]
  decide

end Mask

end Cert.LibRowGather

end
-- ==== Proof.RefValue.lean ====
/-
  The reference's result, entry by entry, is the layer's specification.

  One expert's stretch of the reference is a function of the five argument arrays, of the expert's block offset in the
  two weight stacks and of the expert's number as a word: `stage`. Read at an entry (r, q) it is the specification's
  term for that expert: the gate-and-up product is a sum over the hidden coordinate, its two halves are columns k and
  1024 + k of that product, one over one plus the exponential of minus the gate is the logistic function, the down
  product is a sum over the inner coordinate, and the routing weight is a two-term sum over the token's slots whose
  starting value, the zero word, is zero. The eight stages added in order onto the zero matrix are the specification's
  partial sums, and the reference's result buffer is that sum with the hidden states' unit leading axis put back.
-/
import proofs.«140114_g77670188581355_cont_9to1_m_704_4_alg».proof.ReferenceIdeal
import proofs.«140114_g77670188581355_cont_9to1_m_704_4_alg».proof.Proof.Spec
import proofs.«140114_g77670188581355_cont_9to1_m_704_4_alg».proof.Proof.LibRowGather
import proofs.«140114_g77670188581355_cont_9to1_m_704_4_alg».proof.Proof.RefRun
import Idealize.ShloMosaic.Lib.ValueIdx
import Idealize.ShloMosaic.Lib.ValueLayout
import Idealize.ShloMosaic.Lib.IdealHost
import Idealize.ShloMosaic.PureOps.Ideal.Laws

noncomputable section

open scoped BigOperators

namespace Cert.ReferenceIdeal.RefValue

open Cert.ReferenceIdeal Idealize.ShloMosaic Idealize.ShloMosaic.ValueIdx
open Cert.ReferenceIdeal.Facts₀

section Generic
variable [Facts₀]

section Stage
variable {F : FTy → Type} [FloatOps F]

/-- The hidden states as a 2048 × 1024 matrix: the unit leading axis dropped. -/
def xflat (a0 : FVec F S1x2048x1024 .f32) : FVec F S2048x1024 .f32 :=
  shapeCast _ a0 shapeCasts_S1x2048x1024_S2048x1024

/-- One expert's gate-and-up matrix: the one-expert block of the stack at `off`, its unit leading axis dropped. -/
def w1 (a1 : FVec F S8x1024x2048 .f32) (off : Fin 3 → Nat) (h1 : S8x1024x2048.Slices off S1x1024x2048) :
    FVec F S1024x2048 .f32 :=
  shapeCast _ (extractStridedSlice S1x1024x2048 off a1 h1) shapeCasts_S1x1024x2048_S1024x2048

/-- One expert's down matrix: the one-expert block of the stack at `off`, its unit leading axis dropped. -/
def w2 (a2 : FVec F S8x1024x1024 .f32) (off : Fin 3 → Nat) (h2 : S8x1024x1024.Slices off S1x1024x1024) :
    FVec F S1024x1024 .f32 :=
  shapeCast _ (extractStridedSlice S1x1024x1024 off a2 h2) shapeCasts_S1x1024x1024_S1024x1024

/-- Every token's row times the expert's gate-and-up matrix: 2048 columns per token, gate half then up half. -/
def gu (a0 : FVec F S1x2048x1024 .f32) (a1 : FVec F S8x1024x2048 .f32) (off : Fin 3 → Nat)
    (h1 : S8x1024x2048.Slices off S1x1024x2048) : FVec F S2048x2048 .f32 :=
  Host.dotGeneral dot_S2048x1024_S1024x2048_S2048x2048_1_0_0_1_n_n none (xflat a0) (w1 a1 off h1)

/-- The gate half: columns 0 … 1023 of the projection. -/
def gate (a0 : FVec F S1x2048x1024 .f32) (a1 : FVec F S8x1024x2048 .f32) (off : Fin 3 → Nat)
    (h1 : S8x1024x2048.Slices off S1x1024x2048) : FVec F S2048x1024 .f32 :=
  extractStridedSlice S2048x1024 ![0, 0] (gu a0 a1 off h1) slices_S2048x2048_S2048x1024_0_0

/-- The up half: columns 1024 … 2047 of the projection. -/
def up (a0 : FVec F S1x2048x1024 .f32) (a1 : FVec F S8x1024x2048 .f32) (off : Fin 3 → Nat)
    (h1 : S8x1024x2048.Slices off S1x1024x2048) : FVec F S2048x1024 .f32 :=
  extractStridedSlice S2048x1024 ![0, 1024] (gu a0 a1 off h1) slices_S2048x2048_S2048x1024_0_1024

/-- The constant one at every entry of a 2048 × 1024 matrix. -/
def ones : FVec F S2048x1024 .f32 :=
  broadcastInDim S2048x1024 ![] bcast_S_S2048x1024 (constant S_ .f32 0x3F800000#32)

/-- The gated activation: gate times one over (one plus the exponential of minus the gate), times the up half. -/
def actv (a0 : FVec F S1x2048x1024 .f32) (a1 : FVec F S8x1024x2048 .f32) (off : Fin 3 → Nat)
    (h1 : S8x1024x2048.Slices off S1x1024x2048) : FVec F S2048x1024 .f32 :=
  mulf (mulf (gate a0 a1 off h1) (Host.divf ones (addf ones (Host.exp (Host.negf (gate a0 a1 off h1)))))) (up a0 a1 off h1)

/-- Each token's routing weight for the expert whose number is the word `w`, one per token: over the token's two slots,
    the slot's weight where the slot names that expert and the zero word's value elsewhere, summed from the zero word. -/
def wvec (a3 : IVec S2048x2 32) (a4 : FVec F S2048x2 .f32) (w : BitVec 32) : FVec F S2048 .f32 :=
  Host.reduceAdd (select (cmpi .eq a3 (broadcastInDim S2048x2 ![] bcast_S_S2048x2 (constantI S_ 32 w))) a4
      (broadcastInDim S2048x2 ![] bcast_S_S2048x2 (id (constant S_ .f32 0x00000000#32))))
    (constant S_ .f32 0x00000000#32) reducesTo_S2048x2_S2048_d1 h_S_

/-- ONE EXPERT'S STAGE: the activations times the expert's down matrix, every row scaled by its token's routing
    weight (the weights laid out as a column, then across the 1024 output columns). -/
def stage (a0 : FVec F S1x2048x1024 .f32) (a1 : FVec F S8x1024x2048 .f32) (a2 : FVec F S8x1024x1024 .f32)
    (a3 : IVec S2048x2 32) (a4 : FVec F S2048x2 .f32) (off : Fin 3 → Nat)
    (h1 : S8x1024x2048.Slices off S1x1024x2048) (h2 : S8x1024x1024.Slices off S1x1024x1024) (w : BitVec 32) :
    FVec F S2048x1024 .f32 :=
  mulf (Host.dotGeneral dot_S2048x1024_S1024x1024_S2048x1024_1_0_0_1_n_n none (actv a0 a1 off h1) (w2 a2 off h2))
    (broadcastInDim S2048x1024 ![0, 1] bcast_S2048x1_S2048x1024_0_1
      (broadcastInDim S2048x1 ![0] bcast_S2048_S2048x1_0 (wvec a3 a4 w)))

end Stage

/-! ## The two products read at an index -/

/-- The gate-and-up product contracts one axis … -/
theorem dot1_rank : dot_S2048x1024_S1024x2048_S2048x2048_1_0_0_1_n_n.contr.rank = 1 := rfl
/-- … of 1024 entries: the hidden width. -/
theorem dot1_size : dot_S2048x1024_S1024x2048_S2048x2048_1_0_0_1_n_n.contr.size ⟨0, by rw [dot1_rank]; omega⟩ = 1024 := rfl

/-- Left operand, axis 0: the output's row. -/
theorem lhs_dot_S2048x1024_S1024x2048_S2048x2048_1_0_0_1_n_n_0 (j : S2048x2048.Idx)
    (k : dot_S2048x1024_S1024x2048_S2048x2048_1_0_0_1_n_n.contr.Idx) :
    (dot_S2048x1024_S1024x2048_S2048x2048_1_0_0_1_n_n.lhsIdx j k 0).val = (j 0).val := rfl
/-- Left operand, axis 1: the contracted coordinate. -/
theorem lhs_dot_S2048x1024_S1024x2048_S2048x2048_1_0_0_1_n_n_1 (j : S2048x2048.Idx)
    (k : dot_S2048x1024_S1024x2048_S2048x2048_1_0_0_1_n_n.contr.Idx) :
    (dot_S2048x1024_S1024x2048_S2048x2048_1_0_0_1_n_n.lhsIdx j k 1).val = (k ⟨0, by rw [dot1_rank]; exact Nat.zero_lt_one⟩).val := rfl
/-- Right operand, axis 0: the contracted coordinate. -/
theorem rhs_dot_S2048x1024_S1024x2048_S2048x2048_1_0_0_1_n_n_0 (j : S2048x2048.Idx)
    (k : dot_S2048x1024_S1024x2048_S2048x2048_1_0_0_1_n_n.contr.Idx) :
    (dot_S2048x1024_S1024x2048_S2048x2048_1_0_0_1_n_n.rhsIdx j k 0).val = (k ⟨0, by rw [dot1_rank]; exact Nat.zero_lt_one⟩).val := rfl
/-- Right operand, axis 1: the output's column. -/
theorem rhs_dot_S2048x1024_S1024x2048_S2048x2048_1_0_0_1_n_n_1 (j : S2048x2048.Idx)
    (k : dot_S2048x1024_S1024x2048_S2048x2048_1_0_0_1_n_n.contr.Idx) :
    (dot_S2048x1024_S1024x2048_S2048x2048_1_0_0_1_n_n.rhsIdx j k 1).val = (j 1).val := rfl

/-- THE GATE-AND-UP PRODUCT AT (r, n): the sum over the hidden coordinate j of row r's entry j times the matrix's
    entry (j, n). -/
theorem dot1_apply (A : FVec Ideal S2048x1024 .f32) (B : FVec Ideal S1024x2048 .f32) (r : Fin 2048) (n : Fin 2048) :
    Host.dotGeneral (F := Ideal) dot_S2048x1024_S1024x2048_S2048x2048_1_0_0_1_n_n none A B (ix2 r n)
      = ∑ j : Fin 1024, A (ix2 r j) * B (ix2 j n) := by
  refine (Ideal.dotGeneral_apply dot_S2048x1024_S1024x2048_S2048x2048_1_0_0_1_n_n none .single A B (ix2 r n)).trans ?_
  -- the contraction's index set is its one coordinate's range
  rw [← Equiv.sum_comp (contrEquiv1 dot_S2048x1024_S1024x2048_S2048x2048_1_0_0_1_n_n 1024 dot1_rank dot1_size).symm]
  refine Finset.sum_congr rfl fun j _ => ?_
  have hc := contrEquiv1_symm_val dot_S2048x1024_S1024x2048_S2048x2048_1_0_0_1_n_n 1024 dot1_rank dot1_size j
  have hl : dot_S2048x1024_S1024x2048_S2048x2048_1_0_0_1_n_n.lhsIdx (ix2 r n)
      ((contrEquiv1 dot_S2048x1024_S1024x2048_S2048x2048_1_0_0_1_n_n 1024 dot1_rank dot1_size).symm j) = ix2 r j := by
    funext ax; apply Fin.ext
    match ax with
    | ⟨0, _⟩ => exact lhs_dot_S2048x1024_S1024x2048_S2048x2048_1_0_0_1_n_n_0 _ _
    | ⟨1, _⟩ => exact (lhs_dot_S2048x1024_S1024x2048_S2048x2048_1_0_0_1_n_n_1 _ _).trans hc
  have hr : dot_S2048x1024_S1024x2048_S2048x2048_1_0_0_1_n_n.rhsIdx (ix2 r n)
      ((contrEquiv1 dot_S2048x1024_S1024x2048_S2048x2048_1_0_0_1_n_n 1024 dot1_rank dot1_size).symm j) = ix2 j n := by
    funext ax; apply Fin.ext
    match ax with
    | ⟨0, _⟩ => exact (rhs_dot_S2048x1024_S1024x2048_S2048x2048_1_0_0_1_n_n_0 _ _).trans hc
    | ⟨1, _⟩ => exact rhs_dot_S2048x1024_S1024x2048_S2048x2048_1_0_0_1_n_n_1 _ _
  rw [hl, hr]

/-- The down product contracts one axis … -/
theorem dot2_rank : dot_S2048x1024_S1024x1024_S2048x1024_1_0_0_1_n_n.contr.rank = 1 := rfl
/-- … of 1024 entries: the experts' inner width. -/
theorem dot2_size : dot_S2048x1024_S1024x1024_S2048x1024_1_0_0_1_n_n.contr.size ⟨0, by rw [dot2_rank]; omega⟩ = 1024 := rfl

/-- Left operand, axis 0: the output's row. -/
theorem lhs_dot_S2048x1024_S1024x1024_S2048x1024_1_0_0_1_n_n_0 (j : S2048x1024.Idx)
    (k : dot_S2048x1024_S1024x1024_S2048x1024_1_0_0_1_n_n.contr.Idx) :
    (dot_S2048x1024_S1024x1024_S2048x1024_1_0_0_1_n_n.lhsIdx j k 0).val = (j 0).val := rfl
/-- Left operand, axis 1: the contracted coordinate. -/
theorem lhs_dot_S2048x1024_S1024x1024_S2048x1024_1_0_0_1_n_n_1 (j : S2048x1024.Idx)
    (k : dot_S2048x1024_S1024x1024_S2048x1024_1_0_0_1_n_n.contr.Idx) :
    (dot_S2048x1024_S1024x1024_S2048x1024_1_0_0_1_n_n.lhsIdx j k 1).val = (k ⟨0, by rw [dot2_rank]; exact Nat.zero_lt_one⟩).val := rfl
/-- Right operand, axis 0: the contracted coordinate. -/
theorem rhs_dot_S2048x1024_S1024x1024_S2048x1024_1_0_0_1_n_n_0 (j : S2048x1024.Idx)
    (k : dot_S2048x1024_S1024x1024_S2048x1024_1_0_0_1_n_n.contr.Idx) :
    (dot_S2048x1024_S1024x1024_S2048x1024_1_0_0_1_n_n.rhsIdx j k 0).val = (k ⟨0, by rw [dot2_rank]; exact Nat.zero_lt_one⟩).val := rfl
/-- Right operand, axis 1: the output's column. -/
theorem rhs_dot_S2048x1024_S1024x1024_S2048x1024_1_0_0_1_n_n_1 (j : S2048x1024.Idx)
    (k : dot_S2048x1024_S1024x1024_S2048x1024_1_0_0_1_n_n.contr.Idx) :
    (dot_S2048x1024_S1024x1024_S2048x1024_1_0_0_1_n_n.rhsIdx j k 1).val = (j 1).val := rfl

/-- THE DOWN PRODUCT AT (r, q): the sum over the inner coordinate k of row r's activation k times the matrix's
    entry (k, q). -/
theorem dot2_apply (A : FVec Ideal S2048x1024 .f32) (B : FVec Ideal S1024x1024 .f32) (r : Fin 2048) (q : Fin 1024) :
    Host.dotGeneral (F := Ideal) dot_S2048x1024_S1024x1024_S2048x1024_1_0_0_1_n_n none A B (ix2 r q)
      = ∑ k : Fin 1024, A (ix2 r k) * B (ix2 k q) := by
  refine (Ideal.dotGeneral_apply dot_S2048x1024_S1024x1024_S2048x1024_1_0_0_1_n_n none .single A B (ix2 r q)).trans ?_
  -- the contraction's index set is its one coordinate's range
  rw [← Equiv.sum_comp (contrEquiv1 dot_S2048x1024_S1024x1024_S2048x1024_1_0_0_1_n_n 1024 dot2_rank dot2_size).symm]
  refine Finset.sum_congr rfl fun k _ => ?_
  have hc := contrEquiv1_symm_val dot_S2048x1024_S1024x1024_S2048x1024_1_0_0_1_n_n 1024 dot2_rank dot2_size k
  have hl : dot_S2048x1024_S1024x1024_S2048x1024_1_0_0_1_n_n.lhsIdx (ix2 r q)
      ((contrEquiv1 dot_S2048x1024_S1024x1024_S2048x1024_1_0_0_1_n_n 1024 dot2_rank dot2_size).symm k) = ix2 r k := by
    funext ax; apply Fin.ext
    match ax with
    | ⟨0, _⟩ => exact lhs_dot_S2048x1024_S1024x1024_S2048x1024_1_0_0_1_n_n_0 _ _
    | ⟨1, _⟩ => exact (lhs_dot_S2048x1024_S1024x1024_S2048x1024_1_0_0_1_n_n_1 _ _).trans hc
  have hr : dot_S2048x1024_S1024x1024_S2048x1024_1_0_0_1_n_n.rhsIdx (ix2 r q)
      ((contrEquiv1 dot_S2048x1024_S1024x1024_S2048x1024_1_0_0_1_n_n 1024 dot2_rank dot2_size).symm k) = ix2 k q := by
    funext ax; apply Fin.ext
    match ax with
    | ⟨0, _⟩ => exact (rhs_dot_S2048x1024_S1024x1024_S2048x1024_1_0_0_1_n_n_0 _ _).trans hc
    | ⟨1, _⟩ => exact rhs_dot_S2048x1024_S1024x1024_S2048x1024_1_0_0_1_n_n_1 _ _
  rw [hl, hr]

/-! ## The layout operations read at an index -/

/-- The flattened hidden states at (r, j): the hidden states at (0, r, j) (a cast that drops a unit leading axis). -/
theorem xflat_apply (a0 : FVec Ideal S1x2048x1024 .f32) (r : Fin 2048) (j : Fin 1024) :
    xflat a0 (ix2 r j) = a0 (ix3 (0 : Fin 1) r j) :=
  shapeCast_1ab_ab_apply a0 shapeCasts_S1x2048x1024_S2048x1024 r j

/-- Expert e's gate-and-up matrix at (j, n): the stack at (e, j, n). The block starts at expert e and at zero on the
    two matrix axes, and the cast drops the block's unit leading axis. -/
theorem w1_apply (a1 : FVec Ideal S8x1024x2048 .f32) (e : Fin 8) (off : Fin 3 → Nat) (hoff : off = ![e.val, 0, 0])
    (h1 : S8x1024x2048.Slices off S1x1024x2048) (j : Fin 1024) (n : Fin 2048) :
    w1 a1 off h1 (ix2 j n) = a1 (ix3 e j n) := by
  subst hoff
  refine (shapeCast_1ab_ab_apply _ shapeCasts_S1x1024x2048_S1024x2048 j n).trans ?_
  refine extractStridedSlice_apply _ a1 h1 _ (ix3 e j n) (fun ax => ?_)
  match ax with
  | ⟨0, _⟩ => exact (Nat.add_zero _).symm
  | ⟨1, _⟩ => exact (Nat.zero_add _).symm
  | ⟨2, _⟩ => exact (Nat.zero_add _).symm

/-- Expert e's down matrix at (k, q): the stack at (e, k, q), the same way. -/
theorem w2_apply (a2 : FVec Ideal S8x1024x1024 .f32) (e : Fin 8) (off : Fin 3 → Nat) (hoff : off = ![e.val, 0, 0])
    (h2 : S8x1024x1024.Slices off S1x1024x1024) (k : Fin 1024) (q : Fin 1024) :
    w2 a2 off h2 (ix2 k q) = a2 (ix3 e k q) := by
  subst hoff
  refine (shapeCast_1ab_ab_apply _ shapeCasts_S1x1024x1024_S1024x1024 k q).trans ?_
  refine extractStridedSlice_apply _ a2 h2 _ (ix3 e k q) (fun ax => ?_)
  match ax with
  | ⟨0, _⟩ => exact (Nat.add_zero _).symm
  | ⟨1, _⟩ => exact (Nat.zero_add _).symm
  | ⟨2, _⟩ => exact (Nat.zero_add _).symm

/-- The projection at (r, n), read off the arrays: token r's row against column n of expert e's gate-and-up matrix. -/
theorem gu_apply (a0 : FVec Ideal S1x2048x1024 .f32) (a1 : FVec Ideal S8x1024x2048 .f32) (e : Fin 8) (off : Fin 3 → Nat)
    (hoff : off = ![e.val, 0, 0]) (h1 : S8x1024x2048.Slices off S1x1024x2048) (r : Fin 2048) (n : Fin 2048) :
    gu a0 a1 off h1 (ix2 r n)
      = Cert.MoeSpec.proj (fun j => a0 (ix3 (0 : Fin 1) r j)) (fun j n => a1 (ix3 e j n)) n := by
  refine (dot1_apply (xflat a0) (w1 a1 off h1) r n).trans ?_
  refine Finset.sum_congr rfl fun j _ => ?_
  rw [xflat_apply, w1_apply a1 e off hoff]

/-- The gate half at (r, k) is the projection at column k … -/
theorem gate_apply (a0 : FVec Ideal S1x2048x1024 .f32) (a1 : FVec Ideal S8x1024x2048 .f32) (off : Fin 3 → Nat)
    (h1 : S8x1024x2048.Slices off S1x1024x2048) (r : Fin 2048) (k : Fin 1024) :
    gate a0 a1 off h1 (ix2 r k) = gu a0 a1 off h1 (ix2 r (Cert.MoeSpec.lo k)) :=
  slice2_axis1_apply 0 (gu a0 a1 off h1) slices_S2048x2048_S2048x1024_0_0 r k (Cert.MoeSpec.lo k) (Nat.zero_add _).symm

/-- … and the up half at (r, k) is the projection at column 1024 + k. -/
theorem up_apply (a0 : FVec Ideal S1x2048x1024 .f32) (a1 : FVec Ideal S8x1024x2048 .f32) (off : Fin 3 → Nat)
    (h1 : S8x1024x2048.Slices off S1x1024x2048) (r : Fin 2048) (k : Fin 1024) :
    up a0 a1 off h1 (ix2 r k) = gu a0 a1 off h1 (ix2 r (Cert.MoeSpec.hi k)) :=
  slice2_axis1_apply 1024 (gu a0 a1 off h1) slices_S2048x2048_S2048x1024_0_1024 r k (Cert.MoeSpec.hi k) rfl

/-! ## The sigmoid and the activation -/

/-- The broadcast constant reads, everywhere, the extended real one (the pattern 0x3F800000). -/
theorem ones_apply (i : S2048x1024.Idx) : ones (F := Ideal) i = 1 := by
  refine (broadcastInDim_scalar_apply bcast_S_S2048x1024 _ i).trans ?_
  exact Ideal.ofBits_one_f32

/-- One over (one plus the exponential of minus g), entry by entry, is the logistic function of the entry: the
    definition of the logistic function, once both constants read one. -/
theorem sigmoid_apply (g : FVec Ideal S2048x1024 .f32) (i : S2048x1024.Idx) :
    Host.divf ones (addf ones (Host.exp (Host.negf g))) i = Ideal.logistic (g i) := by
  show Ideal.div (ones (F := Ideal) i) (ones (F := Ideal) i + Ideal.exp (-(g i))) = Ideal.logistic (g i)
  rw [ones_apply]
  rfl

/-- The activation at (r, k): gate times its logistic, times the up entry. -/
theorem actv_apply (a0 : FVec Ideal S1x2048x1024 .f32) (a1 : FVec Ideal S8x1024x2048 .f32) (e : Fin 8) (off : Fin 3 → Nat)
    (hoff : off = ![e.val, 0, 0]) (h1 : S8x1024x2048.Slices off S1x1024x2048) (r : Fin 2048) (k : Fin 1024) :
    actv a0 a1 off h1 (ix2 r k)
      = Cert.MoeSpec.act (fun j => a0 (ix3 (0 : Fin 1) r j)) (fun j n => a1 (ix3 e j n)) k := by
  show (gate a0 a1 off h1 (ix2 r k) * Host.divf ones (addf ones (Host.exp (Host.negf (gate a0 a1 off h1)))) (ix2 r k))
      * up a0 a1 off h1 (ix2 r k) = _
  rw [sigmoid_apply, gate_apply, up_apply, gu_apply a0 a1 e off hoff, gu_apply a0 a1 e off hoff]
  rfl

/-! ## The routing weight -/

/-- The 2048 × 2 slot arrays lose their slot axis under the sum. -/
theorem reduces_slots : S2048x2.Reduces [(1 : Fin 2)] S2048 := by decide

/-- Token r's routing weight for the expert word w: the sum over the two slots, started from the zero word's value,
    which is zero and drops out. -/
theorem wvec_apply (a3 : IVec S2048x2 32) (a4 : FVec Ideal S2048x2 .f32) (w : BitVec 32) (r : Fin 2048) :
    wvec a3 a4 w (ix1 r) = Cert.MoeSpec.weight (fun s => a3 (ix2 r s)) (fun s => a4 (ix2 r s)) w := by
  refine (Ideal.hostReduceAdd_single reducesTo_S2048x2_S2048_d1 reduces_slots _ _ (ix1 r)).trans ?_
  have h0 : (constant (F := Ideal) S_ .f32 0x00000000#32) (Shape.Idx.first h_S_) = 0 := Ideal.ofBits_zero_f32
  rw [h0, zero_add]
  refine Finset.sum_congr rfl fun s _ => ?_
  -- the source index over token r with slot s inserted is (r, s)
  have hl : reduces_slots.lift (ix1 r) s = ix2 r s := by
    funext ax; apply Fin.ext
    match ax with
    | ⟨0, _⟩ => rfl
    | ⟨1, _⟩ => rfl
  rw [hl]
  show Scalar.select (IntOp.cmpi .eq (a3 (ix2 r s)) (broadcastInDim S2048x2 ![] bcast_S_S2048x2 (constantI S_ 32 w) (ix2 r s)))
      (a4 (ix2 r s)) (broadcastInDim S2048x2 ![] bcast_S_S2048x2 (constant (F := Ideal) S_ .f32 0x00000000#32) (ix2 r s)) = _
  rw [broadcastInDim_scalar_apply, broadcastInDim_scalar_apply]
  show Scalar.select (IntOp.cmpi .eq (a3 (ix2 r s)) w) (a4 (ix2 r s)) (Ideal.ofBits .f32 0x00000000#32) = _
  rw [Ideal.ofBits_zero_f32]

/-! ## One expert's stage at an entry -/

/-- EXPERT e's STAGE AT (r, q) is the specification's term: the down product of the activations, scaled by token r's
    routing weight for e. -/
theorem stage_apply (a0 : FVec Ideal S1x2048x1024 .f32) (a1 : FVec Ideal S8x1024x2048 .f32) (a2 : FVec Ideal S8x1024x1024 .f32)
    (a3 : IVec S2048x2 32) (a4 : FVec Ideal S2048x2 .f32) (e : Fin 8) (off : Fin 3 → Nat) (hoff : off = ![e.val, 0, 0])
    (h1 : S8x1024x2048.Slices off S1x1024x2048) (h2 : S8x1024x1024.Slices off S1x1024x1024)
    (w : BitVec 32) (hw : w = BitVec.ofNat 32 e.val) (r : Fin 2048) (q : Fin 1024) :
    stage a0 a1 a2 a3 a4 off h1 h2 w (ix2 r q) = Cert.MoeSpec.term a0 a1 a2 a3 a4 e r q := by
  subst hw
  show Host.dotGeneral (F := Ideal) dot_S2048x1024_S1024x1024_S2048x1024_1_0_0_1_n_n none (actv a0 a1 off h1) (w2 a2 off h2) (ix2 r q)
      * broadcastInDim S2048x1024 ![0, 1] bcast_S2048x1_S2048x1024_0_1
          (broadcastInDim S2048x1 ![0] bcast_S2048_S2048x1_0 (wvec a3 a4 (BitVec.ofNat 32 e.val))) (ix2 r q) = _
  rw [Cert.LibRowGather.rows_apply, wvec_apply, dot2_apply]
  -- the down product's sum, term by term, is the specification's sum over the inner coordinate
  have hE : ∑ k : Fin 1024, actv a0 a1 off h1 (ix2 r k) * w2 a2 off h2 (ix2 k q)
      = Cert.MoeSpec.expertOut (fun j => a0 (ix3 (0 : Fin 1) r j)) (fun j n => a1 (ix3 e j n)) (fun k c => a2 (ix3 e k c)) q :=
    Finset.sum_congr rfl fun k _ => by rw [actv_apply a0 a1 e off hoff, w2_apply a2 e off hoff]
  rw [hE]
  rfl

/-! ## The eight stages added up -/

section Total
variable {F : FTy → Type} [FloatOps F]

/-- THE WHOLE LAYER: the experts' stages added in the experts' order onto the zero matrix, then the unit leading axis
    of the hidden states put back. -/
def total (a0 : FVec F S1x2048x1024 .f32) (a1 : FVec F S8x1024x2048 .f32) (a2 : FVec F S8x1024x1024 .f32)
    (a3 : IVec S2048x2 32) (a4 : FVec F S2048x2 .f32) : FVec F S1x2048x1024 .f32 :=
  shapeCast _ (addf (addf (addf (addf (addf (addf (addf (addf (broadcastInDim S2048x1024 ![] bcast_S_S2048x1024 (constant S_ .f32 0x00000000#32))
      (stage a0 a1 a2 a3 a4 ![0, 0, 0] slices_S8x1024x2048_S1x1024x2048_0_0_0 slices_S8x1024x1024_S1x1024x1024_0_0_0 0#32))
      (stage a0 a1 a2 a3 a4 ![1, 0, 0] slices_S8x1024x2048_S1x1024x2048_1_0_0 slices_S8x1024x1024_S1x1024x1024_1_0_0 1#32))
      (stage a0 a1 a2 a3 a4 ![2, 0, 0] slices_S8x1024x2048_S1x1024x2048_2_0_0 slices_S8x1024x1024_S1x1024x1024_2_0_0 2#32))
      (stage a0 a1 a2 a3 a4 ![3, 0, 0] slices_S8x1024x2048_S1x1024x2048_3_0_0 slices_S8x1024x1024_S1x1024x1024_3_0_0 3#32))
      (stage a0 a1 a2 a3 a4 ![4, 0, 0] slices_S8x1024x2048_S1x1024x2048_4_0_0 slices_S8x1024x1024_S1x1024x1024_4_0_0 4#32))
      (stage a0 a1 a2 a3 a4 ![5, 0, 0] slices_S8x1024x2048_S1x1024x2048_5_0_0 slices_S8x1024x1024_S1x1024x1024_5_0_0 5#32))
      (stage a0 a1 a2 a3 a4 ![6, 0, 0] slices_S8x1024x2048_S1x1024x2048_6_0_0 slices_S8x1024x1024_S1x1024x1024_6_0_0 6#32))
      (stage a0 a1 a2 a3 a4 ![7, 0, 0] slices_S8x1024x2048_S1x1024x2048_7_0_0 slices_S8x1024x1024_S1x1024x1024_7_0_0 7#32)) shapeCasts_S2048x1024_S1x2048x1024

end Total

/-- The broadcast zero word reads, everywhere, the extended real zero. -/
theorem zeros_apply (i : S2048x1024.Idx) :
    broadcastInDim S2048x1024 ![] bcast_S_S2048x1024 (constant (F := Ideal) S_ .f32 0x00000000#32) i = 0 := by
  refine (broadcastInDim_scalar_apply bcast_S_S2048x1024 _ i).trans ?_
  exact Ideal.ofBits_zero_f32

/-- THE WHOLE LAYER IS THE SPECIFICATION'S OUTPUT. At (u, r, q), u the unit axis's one coordinate: the cast reads the
    sum at (r, q); the sum is read entry by entry; zero plus the first term is the first term; each stage is its
    expert's term; and the eight terms added in order are the specification's partial sums, unfolded. -/
theorem total_eq (a0 : FVec Ideal S1x2048x1024 .f32) (a1 : FVec Ideal S8x1024x2048 .f32) (a2 : FVec Ideal S8x1024x1024 .f32)
    (a3 : IVec S2048x2 32) (a4 : FVec Ideal S2048x2 .f32) :
    total a0 a1 a2 a3 a4 = Cert.MoeSpec.out a0 a1 a2 a3 a4 := by
  funext i
  obtain ⟨u, r, q, rfl⟩ : ∃ (u : Fin 1) (r : Fin 2048) (q : Fin 1024), i = ix3 u r q := ⟨i 0, i 1, i 2, eq_ix3 i⟩
  refine (shapeCast_ab_1ab_apply _ shapeCasts_S2048x1024_S1x2048x1024 u r q).trans ?_
  simp only [addf_apply]
  rw [zeros_apply, zero_add,
    stage_apply a0 a1 a2 a3 a4 (0 : Fin 8) ![0, 0, 0] rfl slices_S8x1024x2048_S1x1024x2048_0_0_0
      slices_S8x1024x1024_S1x1024x1024_0_0_0 0#32 rfl r q,
    stage_apply a0 a1 a2 a3 a4 (1 : Fin 8) ![1, 0, 0] rfl slices_S8x1024x2048_S1x1024x2048_1_0_0
      slices_S8x1024x1024_S1x1024x1024_1_0_0 1#32 rfl r q,
    stage_apply a0 a1 a2 a3 a4 (2 : Fin 8) ![2, 0, 0] rfl slices_S8x1024x2048_S1x1024x2048_2_0_0
      slices_S8x1024x1024_S1x1024x1024_2_0_0 2#32 rfl r q,
    stage_apply a0 a1 a2 a3 a4 (3 : Fin 8) ![3, 0, 0] rfl slices_S8x1024x2048_S1x1024x2048_3_0_0
      slices_S8x1024x1024_S1x1024x1024_3_0_0 3#32 rfl r q,
    stage_apply a0 a1 a2 a3 a4 (4 : Fin 8) ![4, 0, 0] rfl slices_S8x1024x2048_S1x1024x2048_4_0_0
      slices_S8x1024x1024_S1x1024x1024_4_0_0 4#32 rfl r q,
    stage_apply a0 a1 a2 a3 a4 (5 : Fin 8) ![5, 0, 0] rfl slices_S8x1024x2048_S1x1024x2048_5_0_0
      slices_S8x1024x1024_S1x1024x1024_5_0_0 5#32 rfl r q,
    stage_apply a0 a1 a2 a3 a4 (6 : Fin 8) ![6, 0, 0] rfl slices_S8x1024x2048_S1x1024x2048_6_0_0
      slices_S8x1024x1024_S1x1024x1024_6_0_0 6#32 rfl r q,
    stage_apply a0 a1 a2 a3 a4 (7 : Fin 8) ![7, 0, 0] rfl slices_S8x1024x2048_S1x1024x2048_7_0_0
      slices_S8x1024x1024_S1x1024x1024_7_0_0 7#32 rfl r q]
  rfl

end Generic

/-! ## The reference's result buffer -/

section Run
open Idealize.ShloMosaic.TcCoe Idealize.SL.Sem Idealize.ShloMosaic.StableHlo

set_option maxRecDepth 8192 in
/-- The run's composed term is the whole layer of the five argument buffers: the same operations in the same order,
    each expert's stretch folded into its stage. -/
theorem res_total {F : FTy → Type} [FloatOps F] (m : (ℓ : Loc nD τ sig) → Buf (Elt F) ℓ) (c : Dev nD) :
    Cert.ReferenceIdeal.ValueP.res_main_v194 (F := F) m c
      = total (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) := rfl

/-- THE REFERENCE'S RESULT IS THE SPECIFICATION'S OUTPUT of the five argument arrays. -/
theorem res_eq (m : (ℓ : Loc nD τ sig) → Buf (Elt Ideal) ℓ) (c : Dev nD) :
    Cert.ReferenceIdeal.ValueP.res_out0 (F := Ideal) m c
      = Cert.MoeSpec.out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) :=
  (res_total m c).trans (total_eq _ _ _ _ _)

end Run

end Cert.ReferenceIdeal.RefValue

end
-- ==== Proof.lean ====
/-
  A mixture-of-experts layer, top two of eight experts with a gated hidden layer, computed by one kernel on a grid of
  token blocks by experts, against the same layer written with whole-array operations.

  Both programs send every token through every expert — project by the expert's gate-and-up matrix, multiply the gate
  half, passed through g ↦ g · σ(g), with the up half, project by the down matrix — scale the result by the token's
  routing weight for that expert, and add the eight scaled results in the order of the experts. They differ in three
  spellings that denote one function on the extended reals: the kernel's matrix unit product into a zero block and the
  whole-array dot product are both the sum over the inner index; the kernel's logistic and the whole-array
  1 / (1 + exp (−g)) are one function; and the kernel starts its sum with the first expert's result where the
  whole-array program adds it to a zero matrix. No law here needs the inputs to be finite.

  The kernel's frame (it runs to the end, faults nowhere, keeps its arguments) is proved once for any float instance and
  used at both; the kernel's result array is read off that run; the whole-array program's result is its run's term read
  entry by entry.
-/
import proofs.«140114_g77670188581355_cont_9to1_m_704_4_alg».proof.Defs
import proofs.«140114_g77670188581355_cont_9to1_m_704_4_alg».proof.Proof.Gen.Kernel
import proofs.«140114_g77670188581355_cont_9to1_m_704_4_alg».proof.Proof.Gen.KernelIdeal
import proofs.«140114_g77670188581355_cont_9to1_m_704_4_alg».proof.Proof.Gen.ReferenceIdeal
import proofs.«140114_g77670188581355_cont_9to1_m_704_4_alg».proof.Proof.Gen.Pre_finite_inputs
import proofs.«140114_g77670188581355_cont_9to1_m_704_4_alg».proof.Proof.Body
import proofs.«140114_g77670188581355_cont_9to1_m_704_4_alg».proof.Proof.BodyBits
import proofs.«140114_g77670188581355_cont_9to1_m_704_4_alg».proof.Proof.KernelValue
import proofs.«140114_g77670188581355_cont_9to1_m_704_4_alg».proof.Proof.RefRun
import proofs.«140114_g77670188581355_cont_9to1_m_704_4_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs to the end and keeps its arguments. -/
theorem frame_kernel : Cert.frame_Kernel := fun m ρ _ => Cert.Kernel.Body.frame (F := Bits) m ρ

/-- So does the idealized kernel. -/
theorem frame_kernelIdeal : Cert.frame_KernelIdeal := fun m ρ _ => Cert.KernelIdeal.Body.frame (F := Ideal) m ρ

/-- The whole-array program is host operations only: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both idealized programs end with the result buffer at the layer's output of the arguments: the kernel's by the
    running sum over each token block's experts, the whole-array program's by its composed term read entry by entry;
    the arguments agree, so the two outputs are one array. -/
theorem algebraic : Cert.algebraic_KernelIdeal_ReferenceIdeal := by
  intro m ρ m' ρ' _ hagree
  refine ⟨fun c => Cert.MoeSpec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.KernelValue.run m ρ, ?_⟩
  refine (θ_run Cert.ReferenceIdeal.defs _ _).mono (fun _ h c => ⟨(h c).1.trans ?_, (h c).2⟩)
    (Cert.ReferenceIdeal.ValueP.run (F := Ideal) m' ρ')
  refine (Cert.ReferenceIdeal.RefValue.res_eq m' c).trans ?_
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
